-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S50000x32 : Shape := ⟨2, ![50000, 32]⟩
abbrev S2x800000 : Shape := ⟨2, ![2, 800000]⟩
abbrev S800000 : Shape := ⟨1, ![800000]⟩
abbrev S4x128x96 : Shape := ⟨3, ![4, 128, 96]⟩
abbrev S4x96 : Shape := ⟨2, ![4, 96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S4x128x96 : S_.BroadcastsInDim S4x128x96 (![] : Fin 0 → Fin S4x128x96.rank)
  reducesTo_S4x128x96_S_d0_1_2 : S4x128x96.ReducesTo [0, 1, 2] S_
  bcast_S_S4x96 : S_.BroadcastsInDim S4x96 (![] : Fin 0 → Fin S4x96.rank)
  reducesTo_S4x96_S_d0_1 : S4x96.ReducesTo [0, 1] S_

variable [Facts]

def fn_part1 {F : FTy → Type} [FloatOps F] (main_v13 : IVec S_ 1) (main_v16 : IVec S4x96 1) : IVec S_ 1 :=
  let main_c_5 : IVec S_ 1 := constantI S_ 1 1#1
  let main_v17 : IVec S_ 1 := (fun x v => Host.reduce IntOp.andi x v reducesTo_S4x96_S_d0_1 h_S_) main_v16 main_c_5
  let main_v18 : IVec S_ 1 := andi main_v13 main_v17
  main_v18

def fn {F : FTy → Type} [FloatOps F] (main_arg0 : FVec F S50000x96 .f32) (main_arg1 : FVec F S50000x32 .f32) (main_arg2 : IVec S2x800000 32) (main_arg3 : IVec S800000 32) (main_arg4 : FVec F S4x128x96 .f32) (main_arg5 : FVec F S4x96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S50000x32 .f32 := Host.absf main_arg1
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S4x128x96 .f32 := Host.absf main_arg4
  let main_cst_2 : FVec F S_ .f32 := constant S_ .f32 0x7F800000#32
  let main_v10 : FVec F S4x128x96 .f32 := broadcastInDim S4x128x96 ![] bcast_S_S4x128x96 main_cst_2
  let main_v11 : IVec S4x128x96 1 := cmpf .olt main_v9 main_v10
  let main_c_3 : IVec S_ 1 := constantI S_ 1 1#1
  let main_v12 : IVec S_ 1 := (fun x v => Host.reduce IntOp.andi x v reducesTo_S4x128x96_S_d0_1_2 h_S_) main_v11 main_c_3
  let main_v13 : IVec S_ 1 := andi main_v8 main_v12
  let main_v14 : FVec F S4x96 .f32 := Host.absf main_arg5
  let main_cst_4 : FVec F S_ .f32 := constant S_ .f32 0x7F800000#32
  let main_v15 : FVec F S4x96 .f32 := broadcastInDim S4x96 ![] bcast_S_S4x96 main_cst_4
  let main_v16 : IVec S4x96 1 := cmpf .olt main_v14 main_v15
  fn_part1 (F := F) main_v13 main_v16
-- ==== Kernel.lean ====
abbrev S50000x96 : Shape := ⟨2, ![50000, 96]⟩
abbrev S50000x32 : Shape := ⟨2, ![50000, 32]⟩
abbrev S2x800000 : Shape := ⟨2, ![2, 800000]⟩
abbrev S800000 : Shape := ⟨1, ![800000]⟩
abbrev S4x128x96 : Shape := ⟨3, ![4, 128, 96]⟩
abbrev S4x96 : Shape := ⟨2, ![4, 96]⟩
abbrev S1x800000 : Shape := ⟨2, ![1, 800000]⟩
abbrev S_ : Shape := ⟨0, ![]⟩
abbrev S800000x1 : Shape := ⟨2, ![800000, 1]⟩
abbrev S800000x32 : Shape := ⟨2, ![800000, 32]⟩
abbrev S800000x96 : Shape := ⟨2, ![800000, 96]⟩
abbrev S800000x128 : Shape := ⟨2, ![800000, 128]⟩
abbrev S6400x128 : Shape := ⟨2, ![6400, 128]⟩
abbrev S6400x1 : Shape := ⟨2, ![6400, 1]⟩
abbrev S6400x96 : Shape := ⟨2, ![6400, 96]⟩
abbrev S1x128x96 : Shape := ⟨3, ![1, 128, 96]⟩
abbrev S128x96 : Shape := ⟨2, ![128, 96]⟩
abbrev S1x96 : Shape := ⟨2, ![1, 96]⟩
abbrev S96 : Shape := ⟨1, ![96]⟩

abbrev nBuf : Space → Nat
  | .hbm => 51
  | .vmem => 8
  | .smem => 0
  | _ => 0

abbrev bufTy : (tb : Table) → Fin (tcTables nBuf tb) → BufTy
  | .hbm, ⟨0, _⟩ => ⟨S50000x96, .f32⟩
  | .hbm, ⟨1, _⟩ => ⟨S50000x32, .f32⟩
  | .hbm, ⟨2, _⟩ => ⟨S2x800000, .i32⟩
  | .hbm, ⟨3, _⟩ => ⟨S800000, .i32⟩
  | .hbm, ⟨4, _⟩ => ⟨S4x128x96, .f32⟩
  | .hbm, ⟨5, _⟩ => ⟨S4x96, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x32, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x32, .f32⟩
  | .hbm, ⟨28, _⟩ => ⟨S800000x32, .f32⟩
  | .hbm, ⟨29, _⟩ => ⟨S800000x32, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x96, .f32⟩
  | .hbm, ⟨39, _⟩ => ⟨S800000x128, .f32⟩
  | .hbm, ⟨40, _⟩ => ⟨S800000x128, .bf16⟩
  | .hbm, ⟨41, _⟩ => ⟨S800000x1, .i32⟩
  | .hbm, ⟨42, _⟩ => ⟨S4x128x96, .bf16⟩
  | .hbm, ⟨43, _⟩ => ⟨S800000x96, .f32⟩
  | .hbm, ⟨44, _⟩ => ⟨S_, .f32⟩
  | .hbm, ⟨45, _⟩ => ⟨S50000x96, .f32⟩
  | .hbm, ⟨46, _⟩ => ⟨S800000x1, .i32⟩
  | .hbm, ⟨47, _⟩ => ⟨S50000x96, .f32⟩
  | .hbm, ⟨48, _⟩ => ⟨S_, .f32⟩
  | .hbm, ⟨49, _⟩ => ⟨S50000x96, .f32⟩
  | .hbm, ⟨50, _⟩ => ⟨S50000x96, .f32⟩
  | .local _ .vmem, ⟨0, _⟩ => ⟨S6400x128, .bf16⟩
  | .local _ .vmem, ⟨1, _⟩ => ⟨S6400x128, .bf16⟩
  | .local _ .vmem, ⟨2, _⟩ => ⟨S6400x1, .i32⟩
  | .local _ .vmem, ⟨3, _⟩ => ⟨S6400x1, .i32⟩
  | .local _ .vmem, ⟨4, _⟩ => ⟨S4x128x96, .bf16⟩
  | .local _ .vmem, ⟨5, _⟩ => ⟨S4x96, .f32⟩
  | .local _ .vmem, ⟨6, _⟩ => ⟨S6400x96, .f32⟩
  | .local _ .vmem, ⟨7, _⟩ => ⟨S6400x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x96_S800000x32_S800000x128_d1 : Shape.Concatenates [S800000x96, S800000x32] S800000x128 1
  bitsLt_bf16_f32 : FTy.bits .bf16 < FTy.bits .f32
  shapeCasts_S800000_S800000x1 : S800000.ShapeCasts S800000x1
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  inb_S4x128x96_S1x128x96_0_0_0 : ∀ a, (![0, 0, 0] : Fin 3 → Nat) a + S1x128x96.size a ≤ S4x128x96.size a
  h_S1x128x96 : 0 < S1x128x96.numel
  shapeCasts_S1x128x96_S128x96 : S1x128x96.ShapeCasts S128x96
  inb_S4x96_S1x96_0_0 : ∀ a, (![0, 0] : Fin 2 → Nat) a + S1x96.size a ≤ S4x96.size a
  h_S1x96 : 0 < S1x96.numel
  shapeCasts_S1x96_S96 : S1x96.ShapeCasts S96
  shapeCasts_S96_S1x96 : S96.ShapeCasts S1x96
  broadcasts_S1x96_S6400x96 : S1x96.Broadcasts S6400x96
  natLt_1_32 : 1 < 32
  broadcasts_S6400x1_S6400x96 : S6400x1.Broadcasts S6400x96
  inb_S4x128x96_S1x128x96_1_0_0 : ∀ a, (![1, 0, 0] : Fin 3 → Nat) a + S1x128x96.size a ≤ S4x128x96.size a
  inb_S4x96_S1x96_1_0 : ∀ a, (![1, 0] : Fin 2 → Nat) a + S1x96.size a ≤ S4x96.size a
  inb_S4x128x96_S1x128x96_2_0_0 : ∀ a, (![2, 0, 0] : Fin 3 → Nat) a + S1x128x96.size a ≤ S4x128x96.size a
  inb_S4x96_S1x96_2_0 : ∀ a, (![2, 0] : Fin 2 → Nat) a + S1x96.size a ≤ S4x96.size a
  inb_S4x128x96_S1x128x96_3_0_0 : ∀ a, (![3, 0, 0] : Fin 3 → Nat) a + S1x128x96.size a ≤ S4x128x96.size a
  inb_S4x96_S1x96_3_0 : ∀ a, (![3, 0] : Fin 2 → Nat) a + S1x96.size a ≤ S4x96.size a
  inb_S6400x96_S6400x96_0_0 : ∀ a, (![0, 0] : Fin 2 → Nat) a + S6400x96.size a ≤ S6400x96.size a
  h_S6400x96 : 0 < S6400x96.numel
  bcast_S_S50000x96 : S_.BroadcastsInDim S50000x96 (![] : Fin 0 → Fin S50000x96.rank)
  gather_S50000x32_S800000x1_S800000x32_1_0_n_n_0_1_132_wf : GatherDims.WF S50000x32 S800000x1 S800000x32 [1] [0] [] [0] [] 1 ![1, 32]
  gather_S50000x96_S800000x1_S800000x96_1_0_n_n_0_1_196_wf : GatherDims.WF S50000x96 S800000x1 S800000x96 [1] [0] [] [0] [] 1 ![1, 96]
  dot_S6400x128_S128x96_S6400x96_1_0_0_1_n_n_wf : DotDims.WF S6400x128 S128x96 S6400x96 [1] [0] [0] [1] [] []
  scatter_S50000x96_S800000x1_S800000x96_1_0_0_1_wf : ScatterDims.WF S50000x96 S800000x1 S800000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .bf16 = 32 ∨ (Rect.block (s := S800000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x1.size a ≤ S800000x1.size a
  hwx0_1 : ∀ i : grid0.Coords, EltTy.bits .i32 = 32 ∨ (Rect.block (s := S800000x1) S6400x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128x96.size a ≤ S4x128x96.size a
  hwx0_2 : ∀ i : grid0.Coords, EltTy.bits .bf16 = 32 ∨ (Rect.block (s := S4x128x96) S4x128x96.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x96.size a ≤ S4x96.size a
  hwx0_3 : ∀ i : grid0.Coords, EltTy.bits .f32 = 32 ∨ (Rect.block (s := S4x96) S4x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x96.size a ≤ S800000x96.size a
  hwx0_4 : ∀ i : grid0.Coords, EltTy.bits .f32 = 32 ∨ (Rect.block (s := S800000x96) S6400x96.size (cc0_transform_4 i) (hinb0_4 i)).WholeWords (EltTy.packing .f32)

variable [Facts₀]

def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S6400x128_S128x96_S6400x96_1_0_0_1_n_n : DotDims S6400x128 S128x96 S6400x96 where
  lhsContracting := [1]
  rhsContracting := [0]
  lhsNonContracting := [0]
  rhsNonContracting := [1]
  lhsBatch := []
  rhsBatch := []
  wf := dot_S6400x128_S128x96_S6400x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

abbrev win0_0 : Pipeline.Window sig grid0 :=
  Pipeline.Window.ofSpec (Memref.whole main_v28) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S6400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4x128x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S4x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S6400x96.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x96 : Shape := ⟨2, ![50000, 96]⟩
abbrev S50000x32 : Shape := ⟨2, ![50000, 32]⟩
abbrev S2x800000 : Shape := ⟨2, ![2, 800000]⟩
abbrev S800000 : Shape := ⟨1, ![800000]⟩
abbrev S4x128x96 : Shape := ⟨3, ![4, 128, 96]⟩
abbrev S4x96 : Shape := ⟨2, ![4, 96]⟩
abbrev S1x800000 : Shape := ⟨2, ![1, 800000]⟩
abbrev S_ : Shape := ⟨0, ![]⟩
abbrev S800000x1 : Shape := ⟨2, ![800000, 1]⟩
abbrev S800000x32 : Shape := ⟨2, ![800000, 32]⟩
abbrev S800000x96 : Shape := ⟨2, ![800000, 96]⟩
abbrev S800000x128 : Shape := ⟨2, ![800000, 128]⟩
abbrev S1x128x96 : Shape := ⟨3, ![1, 128, 96]⟩
abbrev S128x96 : Shape := ⟨2, ![128, 96]⟩
abbrev S1x96 : Shape := ⟨2, ![1, 96]⟩
abbrev S96 : Shape := ⟨1, ![96]⟩
abbrev S1x50000x96 : Shape := ⟨3, ![1, 50000, 96]⟩
abbrev S4x50000x96 : Shape := ⟨3, ![4, 50000, 96]⟩

abbrev nBuf : Space → Nat
  | .hbm => 126
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S50000x32, .f32⟩
  | .hbm, ⟨2, _⟩ => ⟨S2x800000, .i32⟩
  | .hbm, ⟨3, _⟩ => ⟨S800000, .i32⟩
  | .hbm, ⟨4, _⟩ => ⟨S4x128x96, .f32⟩
  | .hbm, ⟨5, _⟩ => ⟨S4x96, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x32, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x32, .f32⟩
  | .hbm, ⟨28, _⟩ => ⟨S800000x32, .f32⟩
  | .hbm, ⟨29, _⟩ => ⟨S800000x32, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x96, .f32⟩
  | .hbm, ⟨39, _⟩ => ⟨S800000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S800000, .f32⟩
  | .hbm, ⟨44, _⟩ => ⟨S800000x1, .f32⟩
  | .hbm, ⟨45, _⟩ => ⟨S1x128x96, .f32⟩
  | .hbm, ⟨46, _⟩ => ⟨S128x96, .f32⟩
  | .hbm, ⟨47, _⟩ => ⟨S800000x96, .f32⟩
  | .hbm, ⟨48, _⟩ => ⟨S1x96, .f32⟩
  | .hbm, ⟨49, _⟩ => ⟨S96, .f32⟩
  | .hbm, ⟨50, _⟩ => ⟨S1x96, .f32⟩
  | .hbm, ⟨51, _⟩ => ⟨S800000x96, .f32⟩
  | .hbm, ⟨52, _⟩ => ⟨S800000x96, .f32⟩
  | .hbm, ⟨53, _⟩ => ⟨S800000x96, .f32⟩
  | .hbm, ⟨54, _⟩ => ⟨S800000x96, .f32⟩
  | .hbm, ⟨55, _⟩ => ⟨S_, .f32⟩
  | .hbm, ⟨56, _⟩ => ⟨S50000x96, .f32⟩
  | .hbm, ⟨57, _⟩ => ⟨S800000x1, .i32⟩
  | .hbm, ⟨58, _⟩ => ⟨S50000x96, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S800000, .f32⟩
  | .hbm, ⟨63, _⟩ => ⟨S800000x1, .f32⟩
  | .hbm, ⟨64, _⟩ => ⟨S1x128x96, .f32⟩
  | .hbm, ⟨65, _⟩ => ⟨S128x96, .f32⟩
  | .hbm, ⟨66, _⟩ => ⟨S800000x96, .f32⟩
  | .hbm, ⟨67, _⟩ => ⟨S1x96, .f32⟩
  | .hbm, ⟨68, _⟩ => ⟨S96, .f32⟩
  | .hbm, ⟨69, _⟩ => ⟨S1x96, .f32⟩
  | .hbm, ⟨70, _⟩ => ⟨S800000x96, .f32⟩
  | .hbm, ⟨71, _⟩ => ⟨S800000x96, .f32⟩
  | .hbm, ⟨72, _⟩ => ⟨S800000x96, .f32⟩
  | .hbm, ⟨73, _⟩ => ⟨S800000x96, .f32⟩
  | .hbm, ⟨74, _⟩ => ⟨S_, .f32⟩
  | .hbm, ⟨75, _⟩ => ⟨S50000x96, .f32⟩
  | .hbm, ⟨76, _⟩ => ⟨S800000x1, .i32⟩
  | .hbm, ⟨77, _⟩ => ⟨S50000x96, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S800000, .f32⟩
  | .hbm, ⟨82, _⟩ => ⟨S800000x1, .f32⟩
  | .hbm, ⟨83, _⟩ => ⟨S1x128x96, .f32⟩
  | .hbm, ⟨84, _⟩ => ⟨S128x96, .f32⟩
  | .hbm, ⟨85, _⟩ => ⟨S800000x96, .f32⟩
  | .hbm, ⟨86, _⟩ => ⟨S1x96, .f32⟩
  | .hbm, ⟨87, _⟩ => ⟨S96, .f32⟩
  | .hbm, ⟨88, _⟩ => ⟨S1x96, .f32⟩
  | .hbm, ⟨89, _⟩ => ⟨S800000x96, .f32⟩
  | .hbm, ⟨90, _⟩ => ⟨S800000x96, .f32⟩
  | .hbm, ⟨91, _⟩ => ⟨S800000x96, .f32⟩
  | .hbm, ⟨92, _⟩ => ⟨S800000x96, .f32⟩
  | .hbm, ⟨93, _⟩ => ⟨S_, .f32⟩
  | .hbm, ⟨94, _⟩ => ⟨S50000x96, .f32⟩
  | .hbm, ⟨95, _⟩ => ⟨S800000x1, .i32⟩
  | .hbm, ⟨96, _⟩ => ⟨S50000x96, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S800000, .f32⟩
  | .hbm, ⟨101, _⟩ => ⟨S800000x1, .f32⟩
  | .hbm, ⟨102, _⟩ => ⟨S1x128x96, .f32⟩
  | .hbm, ⟨103, _⟩ => ⟨S128x96, .f32⟩
  | .hbm, ⟨104, _⟩ => ⟨S800000x96, .f32⟩
  | .hbm, ⟨105, _⟩ => ⟨S1x96, .f32⟩
  | .hbm, ⟨106, _⟩ => ⟨S96, .f32⟩
  | .hbm, ⟨107, _⟩ => ⟨S1x96, .f32⟩
  | .hbm, ⟨108, _⟩ => ⟨S800000x96, .f32⟩
  | .hbm, ⟨109, _⟩ => ⟨S800000x96, .f32⟩
  | .hbm, ⟨110, _⟩ => ⟨S800000x96, .f32⟩
  | .hbm, ⟨111, _⟩ => ⟨S800000x96, .f32⟩
  | .hbm, ⟨112, _⟩ => ⟨S_, .f32⟩
  | .hbm, ⟨113, _⟩ => ⟨S50000x96, .f32⟩
  | .hbm, ⟨114, _⟩ => ⟨S800000x1, .i32⟩
  | .hbm, ⟨115, _⟩ => ⟨S50000x96, .f32⟩
  | .hbm, ⟨116, _⟩ => ⟨S1x50000x96, .f32⟩
  | .hbm, ⟨117, _⟩ => ⟨S1x50000x96, .f32⟩
  | .hbm, ⟨118, _⟩ => ⟨S1x50000x96, .f32⟩
  | .hbm, ⟨119, _⟩ => ⟨S1x50000x96, .f32⟩
  | .hbm, ⟨120, _⟩ => ⟨S4x50000x96, .f32⟩
  | .hbm, ⟨121, _⟩ => ⟨S_, .f32⟩
  | .hbm, ⟨122, _⟩ => ⟨S50000x96, .f32⟩
  | .hbm, ⟨123, _⟩ => ⟨S_, .f32⟩
  | .hbm, ⟨124, _⟩ => ⟨S50000x96, .f32⟩
  | .hbm, ⟨125, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_c_8 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_9 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_c_10 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_11 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_12 : Ref sig .tc := ⟨.hbm, 121, rfl⟩
abbrev main_v101 : Ref sig .tc := ⟨.hbm, 122, rfl⟩
abbrev main_cst_13 : Ref sig .tc := ⟨.hbm, 123, rfl⟩
abbrev main_v102 : Ref sig .tc := ⟨.hbm, 124, rfl⟩
abbrev main_v103 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x96_S800000x32_S800000x128_d1 : Shape.Concatenates [S800000x96, S800000x32] S800000x128 1
  slices_S4x128x96_S1x128x96_0_0_0 : S4x128x96.Slices ![0, 0, 0] S1x128x96
  shapeCasts_S1x128x96_S128x96 : S1x128x96.ShapeCasts S128x96
  slices_S4x96_S1x96_0_0 : S4x96.Slices ![0, 0] S1x96
  shapeCasts_S1x96_S96 : S1x96.ShapeCasts S96
  bcast_S96_S1x96_1 : S96.BroadcastsInDim S1x96 (![1] : Fin 1 → Fin S1x96.rank)
  bcast_S1x96_S800000x96_0_1 : S1x96.BroadcastsInDim S800000x96 (![0, 1] : Fin 2 → Fin S800000x96.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  slices_S4x128x96_S1x128x96_1_0_0 : S4x128x96.Slices ![1, 0, 0] S1x128x96
  slices_S4x96_S1x96_1_0 : S4x96.Slices ![1, 0] S1x96
  slices_S4x128x96_S1x128x96_2_0_0 : S4x128x96.Slices ![2, 0, 0] S1x128x96
  slices_S4x96_S1x96_2_0 : S4x96.Slices ![2, 0] S1x96
  slices_S4x128x96_S1x128x96_3_0_0 : S4x128x96.Slices ![3, 0, 0] S1x128x96
  slices_S4x96_S1x96_3_0 : S4x96.Slices ![3, 0] S1x96
  bcast_S50000x96_S1x50000x96_1_2 : S50000x96.BroadcastsInDim S1x50000x96 (![1, 2] : Fin 2 → Fin S1x50000x96.rank)
  concatenates_S1x50000x96_S1x50000x96_S1x50000x96_S1x50000x96_S4x50000x96_d0 : Shape.Concatenates [S1x50000x96, S1x50000x96, S1x50000x96, S1x50000x96] S4x50000x96 0
  reducesTo_S4x50000x96_S50000x96_d0 : S4x50000x96.ReducesTo [0] S50000x96
  h_S_ : 0 < S_.numel
  gather_S50000x32_S800000x1_S800000x32_1_0_n_n_0_1_132_wf : GatherDims.WF S50000x32 S800000x1 S800000x32 [1] [0] [] [0] [] 1 ![1, 32]
  gather_S50000x96_S800000x1_S800000x96_1_0_n_n_0_1_196_wf : GatherDims.WF S50000x96 S800000x1 S800000x96 [1] [0] [] [0] [] 1 ![1, 96]
  dot_S800000x128_S128x96_S800000x96_1_0_0_1_n_n_wf : DotDims.WF S800000x128 S128x96 S800000x96 [1] [0] [0] [1] [] []
  scatter_S50000x96_S800000x1_S800000x96_1_0_0_1_wf : ScatterDims.WF S50000x96 S800000x1 S800000x96 [1] [0] [0] 1

variable [Facts₀]

def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S800000x128_S128x96_S800000x96_1_0_0_1_n_n : DotDims S800000x128 S128x96 S800000x96 where
  lhsContracting := [1]
  rhsContracting := [0]
  lhsNonContracting := [0]
  rhsNonContracting := [1]
  lhsBatch := []
  rhsBatch := []
  wf := dot_S800000x128_S128x96_S800000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

class Facts : Prop extends Facts₀ where

variable [Facts]
-- ==== Proof.MsgBlock.lean ====
/-
  What the kernel body stores, entry by entry.

  At a grid point the body holds a block of 6400 edges: their features x0 (6400 × 128), their type words x1
  (6400 × 1), and the whole weight tensor x2 (4 × 128 × 96) and bias table x3 (4 × 96). For each relation type
  t it multiplies the feature block with the type's weight matrix (the rows [t, ·, ·] of x2), adds the type's bias
  row, and multiplies by the 0/1 indicator that the edge's type word is t; it adds the four products, starting
  from zero, and stores the sum. So entry (p, q) of the stored block is
    0 + ∑ over t of (∑ k, x0[p, k] · x2[t, k, q] + x3[t, q]) · [x1[p, 0] = t].
-/
import proofs.«147556_j82308753260705_1_alg».proof.Proof.Gen.KernelIdeal.Frame
import Idealize.ShloMosaic.Lib.ValueIdx
import Idealize.ShloMosaic.Lib.Pipeline.Value
import Idealize.ShloMosaic.PureOps.Ideal.Laws

noncomputable section

namespace Cert.KernelIdeal.Msg

open Cert.KernelIdeal Cert.KernelIdeal.Gen Idealize.ShloMosaic Idealize.ShloMosaic.TcCoe Idealize.ShloMosaic.ValueIdx
open scoped BigOperators

/-! ## The product of a 6400 × 128 block with a 128 × 96 matrix, at an entry -/

theorem lhs_axis0 (i : S6400x96.Idx) (q : dot_S6400x128_S128x96_S6400x96_1_0_0_1_n_n.contr.Idx) :
    (dot_S6400x128_S128x96_S6400x96_1_0_0_1_n_n.lhsIdx i q 0).val = (i 0).val := by
  unfold DotDims.lhsIdx
  rw [dif_neg (show ¬(0 : Fin S6400x128.rank) ∈ dot_S6400x128_S128x96_S6400x96_1_0_0_1_n_n.lhsBatch by decide), dif_pos (show (0 : Fin S6400x128.rank) ∈ dot_S6400x128_S128x96_S6400x96_1_0_0_1_n_n.lhsNonContracting by decide)]
  rfl
theorem lhs_axis1 (i : S6400x96.Idx) (q : dot_S6400x128_S128x96_S6400x96_1_0_0_1_n_n.contr.Idx) :
    (dot_S6400x128_S128x96_S6400x96_1_0_0_1_n_n.lhsIdx i q 1).val = (q ⟨0, by decide⟩).val :=
  dot_S6400x128_S128x96_S6400x96_1_0_0_1_n_n.lhsIdx_val_of_single rfl i q
theorem rhs_axis0 (i : S6400x96.Idx) (q : dot_S6400x128_S128x96_S6400x96_1_0_0_1_n_n.contr.Idx) :
    (dot_S6400x128_S128x96_S6400x96_1_0_0_1_n_n.rhsIdx i q 0).val = (q ⟨0, by decide⟩).val :=
  dot_S6400x128_S128x96_S6400x96_1_0_0_1_n_n.rhsIdx_val_of_single rfl i q
theorem rhs_axis1 (i : S6400x96.Idx) (q : dot_S6400x128_S128x96_S6400x96_1_0_0_1_n_n.contr.Idx) :
    (dot_S6400x128_S128x96_S6400x96_1_0_0_1_n_n.rhsIdx i q 1).val = (i 1).val := by
  unfold DotDims.rhsIdx
  rw [dif_neg (show ¬(1 : Fin S128x96.rank) ∈ dot_S6400x128_S128x96_S6400x96_1_0_0_1_n_n.rhsBatch by decide), dif_pos (show (1 : Fin S128x96.rank) ∈ dot_S6400x128_S128x96_S6400x96_1_0_0_1_n_n.rhsNonContracting by decide)]
  rfl

/-- Entry (p, q) of the product into a zero accumulator is the sum over the 128 shared coordinates. -/
theorem matmul_zero_apply (a : FVec Ideal S6400x128 .bf16) (w : FVec Ideal S128x96 .bf16) (p : Fin 6400) (q : Fin 96) :
    matmul dot_S6400x128_S128x96_S6400x96_1_0_0_1_n_n none a w (constant (F := Ideal) S6400x96 .f32 0x00000000#32) (ix2 p q)
      = ∑ k : Fin 128, a (ix2 p k) * w (ix2 k q) := by
  refine (Ideal.matmul_constant_zero_apply dot_S6400x128_S128x96_S6400x96_1_0_0_1_n_n none a w (ix2 p q)).trans ?_
  rw [← Equiv.sum_comp (contrEquiv1 dot_S6400x128_S128x96_S6400x96_1_0_0_1_n_n 128 rfl rfl).symm]
  refine Finset.sum_congr rfl fun k _ => ?_
  have hk := contrEquiv1_symm_val dot_S6400x128_S128x96_S6400x96_1_0_0_1_n_n 128 rfl rfl k
  have el : dot_S6400x128_S128x96_S6400x96_1_0_0_1_n_n.lhsIdx (ix2 p q) ((contrEquiv1 dot_S6400x128_S128x96_S6400x96_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S6400x128_S128x96_S6400x96_1_0_0_1_n_n.rhsIdx (ix2 p q) ((contrEquiv1 dot_S6400x128_S128x96_S6400x96_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The pieces of one relation type's term, at an entry -/

/-- A relation type's weight rows, a 1 × 128 × 96 piece, read as a 128 × 96 matrix. -/
theorem weightRows_apply {α : Type} (wt : S1x128x96.Idx → α) (h : S1x128x96.ShapeCasts S128x96) (k : Fin 128) (q : Fin 96) :
    shapeCast S128x96 wt h (ix2 k q) = wt (ix3 (0 : Fin 1) k q) := by
  refine shapeCast_apply wt h (ix2 k q) (ix3 (0 : Fin 1) k q) ?_
  rw [Shape.rowMajor_val_three, Shape.rowMajor_val_two]
  show (0 * 128 + k.val) * 96 + q.val = k.val * 96 + q.val
  omega

/-- A relation type's bias row, a 1 × 96 piece flattened, restored and laid under every one of the 6400 rows. -/
theorem biasRow_apply (bt : Vec Ideal S1x96 .f32) (h1 : S1x96.ShapeCasts S96) (h2 : S96.ShapeCasts S1x96)
    (hb : S1x96.Broadcasts S6400x96) (p : Fin 6400) (q : Fin 96) :
    broadcastTo S6400x96 (shapeCast S1x96 (shapeCast S96 bt h1) h2) hb (ix2 p q) = bt (ix2 (0 : Fin 1) q) := by
  rw [shapeCast_shapeCast]
  refine broadcastTo_apply bt hb (ix2 p q) (ix2 (0 : Fin 1) q) ?_
  intro a
  match a with
  | ⟨0, _⟩ => show (0 : ℕ) = if (1 : ℕ) = 1 then 0 else p.val; rw [if_pos rfl]
  | ⟨1, _⟩ => show q.val = if (96 : ℕ) = 1 then 0 else q.val; rw [if_neg (by decide)]

/-- The indicator column of a relation type whose type word is w: the one-bit compare of the edge's type word,
    widened and read as a number, laid across the 96 columns. -/
theorem typeColumn_apply (v3 : IVec S6400x1 32) (w : BitVec 32) (h : (1 : ℕ) < 32) (hb : S6400x1.Broadcasts S6400x96)
    (p : Fin 6400) (q : Fin 96) :
    broadcastTo S6400x96 (sitofp (F := Ideal) .f32 (extui 32 (cmpi .eq v3 (broadcast S6400x1 w)) h)) hb (ix2 p q)
      = ((((IntOp.cmpi .eq (v3 (ix2 p (0 : Fin 1))) w).setWidth 32).toInt : ℝ) : EReal) := by
  refine (broadcastTo_apply _ hb (ix2 p q) (ix2 p (0 : Fin 1)) ?_).trans rfl
  intro a
  match a with
  | ⟨0, _⟩ => show p.val = if (6400 : ℕ) = 1 then 0 else p.val; rw [if_neg (by decide)]
  | ⟨1, _⟩ => show (0 : ℕ) = if (1 : ℕ) = 1 then 0 else q.val; rw [if_pos rfl]

/-- One relation type's term at entry (p, q), from its weight piece wt and bias piece bt: the feature row against
    the weight column, plus the bias, times the indicator. -/
theorem relTerm_apply (x0 : FVec Ideal S6400x128 .bf16) (x1 : IVec S6400x1 32) (wt : FVec Ideal S1x128x96 .bf16)
    (bt : FVec Ideal S1x96 .f32) (w : BitVec 32) (h1 : S1x128x96.ShapeCasts S128x96) (h2 : S1x96.ShapeCasts S96)
    (h3 : S96.ShapeCasts S1x96) (h4 : S1x96.Broadcasts S6400x96) (h5 : (1 : ℕ) < 32) (h6 : S6400x1.Broadcasts S6400x96)
    (p : Fin 6400) (q : Fin 96) :
    mulf (addf (matmul dot_S6400x128_S128x96_S6400x96_1_0_0_1_n_n none x0 (shapeCast S128x96 wt h1)
            (constant (F := Ideal) S6400x96 .f32 0x00000000#32))
          (broadcastTo S6400x96 (shapeCast S1x96 (shapeCast S96 bt h2) h3) h4))
      (broadcastTo S6400x96 (sitofp (F := Ideal) .f32 (extui 32 (cmpi .eq x1 (broadcast S6400x1 w)) h5)) h6) (ix2 p q)
      = ((∑ k : Fin 128, x0 (ix2 p k) * wt (ix3 (0 : Fin 1) k q)) + bt (ix2 (0 : Fin 1) q))
          * ((((IntOp.cmpi .eq (x1 (ix2 p (0 : Fin 1))) w).setWidth 32).toInt : ℝ) : EReal) := by
  rw [mulf_apply, addf_apply, matmul_zero_apply, biasRow_apply, typeColumn_apply]
  simp only [weightRows_apply]

/-! ## The loads of one relation type's rows -/

/-- Loading the 1 × 128 × 96 piece at row o of the weight tensor reads the tensor's rows [o, ·, ·]. -/
theorem loadWeight_apply (x2 : Vec Ideal S4x128x96 .bf16) (o : ℕ) (ho : o < 4)
    (inb : ∀ a, (![o, 0, 0] : Fin 3 → Nat) a + S1x128x96.size a ≤ S4x128x96.size a) (k : Fin 128) (q : Fin 96) :
    View.ld x2 (Rect.unit (s := S4x128x96) ![o, 0, 0] S1x128x96.size inb) (ix3 (0 : Fin 1) k q)
      = x2 (ix3 (⟨o, ho⟩ : Fin 4) k q) := by
  show x2 _ = x2 _
  congr 1
  funext a
  apply Fin.ext
  match a with
  | ⟨0, _⟩ => show o + 1 * 0 = o; omega
  | ⟨1, _⟩ => show 0 + 1 * k.val = k.val; omega
  | ⟨2, _⟩ => show 0 + 1 * q.val = q.val; omega

/-- Loading the 1 × 96 piece at row o of the bias table reads the table's row o. -/
theorem loadBias_apply (x3 : Vec Ideal S4x96 .f32) (o : ℕ) (ho : o < 4)
    (inb : ∀ a, (![o, 0] : Fin 2 → Nat) a + S1x96.size a ≤ S4x96.size a) (q : Fin 96) :
    View.ld x3 (Rect.unit (s := S4x96) ![o, 0] S1x96.size inb) (ix2 (0 : Fin 1) q) = x3 (ix2 (⟨o, ho⟩ : Fin 4) q) := by
  show x3 _ = x3 _
  congr 1
  funext a
  apply Fin.ext
  match a with
  | ⟨0, _⟩ => show o + 1 * 0 = o; omega
  | ⟨1, _⟩ => show 0 + 1 * q.val = q.val; omega

/-! ## The stored block, entry by entry -/

theorem zeros2 : (![0, 0] : Fin 2 → Nat) = fun _ => 0 := funext fun a => by fin_cases a <;> rfl

/-- One relation type's term of the stored entry (p, q): the feature row p against the type's weight column q,
    plus the type's bias, times the edge's indicator for the type word w, the compare bit widened and read signed. -/
def blockTerm (x0 : Vec Ideal S6400x128 .bf16) (x1 : Vec Ideal S6400x1 .i32) (x2 : Vec Ideal S4x128x96 .bf16)
    (x3 : Vec Ideal S4x96 .f32) (t : Fin 4) (w : BitVec 32) (p : Fin 6400) (q : Fin 96) : EReal :=
  ((∑ k : Fin 128, x0 (ix2 p k) * x2 (ix3 t k q)) + x3 (ix2 t q))
    * ((((IntOp.cmpi .eq (x1 (ix2 p (0 : Fin 1))) w).setWidth 32).toInt : ℝ) : EReal)

/-- THE STORED BLOCK at entry (p, q): zero plus the four relation types' terms, in the order the body adds them. -/
theorem stored_apply (x0 : Vec Ideal S6400x128 .bf16) (x1 : Vec Ideal S6400x1 .i32) (x2 : Vec Ideal S4x128x96 .bf16)
    (x3 : Vec Ideal S4x96 .f32) (p : Fin 6400) (q : Fin 96) :
    out0_4 x0 x1 x2 x3 (ix2 p q)
      = 0 + blockTerm x0 x1 x2 x3 0 0#32 p q + blockTerm x0 x1 x2 x3 1 1#32 p q
          + blockTerm x0 x1 x2 x3 2 2#32 p q + blockTerm x0 x1 x2 x3 3 3#32 p q := by
  unfold out0_4
  rw [View.canon_unit_zero zeros2]
  simp only [View.ld_unit_zero (S := S6400x128) zeros2, View.ld_unit_zero (S := S6400x1) zeros2]
  unfold k0_pay1 k0_pay4 k0_pay5 k0_pay2 k0_pay3
  simp only [shapeCast_self]
  rw [addf_apply, addf_apply, addf_apply, addf_apply, broadcast_apply, relTerm_apply, relTerm_apply, relTerm_apply,
    relTerm_apply]
  simp only [loadWeight_apply x2 0 (by decide), loadWeight_apply x2 1 (by decide), loadWeight_apply x2 2 (by decide),
    loadWeight_apply x2 3 (by decide), loadBias_apply x3 0 (by decide), loadBias_apply x3 1 (by decide),
    loadBias_apply x3 2 (by decide), loadBias_apply x3 3 (by decide)]
  rw [Ideal.ofBits_def, Ideal.ofBits_zero_f32]
  rfl

end Cert.KernelIdeal.Msg

end
-- ==== Proof.MsgArray.lean ====
/-
  The message array after the region, the program's result, and the program's run.

  Every grid point t writes back the block of 6400 edges t · 6400 … t · 6400 + 6399 of one function of the
  arrays the region finds (the edges' features, their type words, the weights, the biases): entry (e, q) is zero plus
  the four relation types' terms. The 125 blocks tile the array, so after the region the array IS that function.
  The lines after the region add its rows into a zero array at the destination words and multiply by the word
  that denotes one quarter.
-/
import proofs.«147556_j82308753260705_1_alg».proof.Proof.MsgBlock
import Idealize.ShloMosaic.Lib.StableHlo.Run

noncomputable section

namespace Cert.KernelIdeal.Msg

open Cert.KernelIdeal Cert.KernelIdeal.Gen Idealize.ShloMosaic Idealize.ShloMosaic.TcCoe Idealize.ShloMosaic.ValueIdx
open scoped BigOperators

/-! ## The message array: every block is a block of one function of the arrays the region finds -/

section Array

open Idealize.SL Idealize.SL.Sem
open Idealize.ShloMosaic.Pipeline (Dat Cfg Window)

variable (m : (ℓ : Loc nD τ sig) → Buf (Elt Ideal) ℓ)

/-- The arrays the region finds, at their literal shapes: the edges' features, their type words as a column, the
    weight tensor and the bias table. -/
abbrev featArr (c : Dev nD) : Vec Ideal S800000x128 .bf16 := V m c main_v28
abbrev typeArr (c : Dev nD) : Vec Ideal S800000x1 .i32 := V m c main_v29
abbrev weightArr (c : Dev nD) : Vec Ideal S4x128x96 .bf16 := V m c main_v30
abbrev biasArr (c : Dev nD) : Vec Ideal S4x96 .f32 := V m c main_arg5

/-- One relation type's term of the message of edge e, column q, over whole arrays. -/
def arrTerm (feat : Vec Ideal S800000x128 .bf16) (ty : Vec Ideal S800000x1 .i32) (W : Vec Ideal S4x128x96 .bf16)
    (b : Vec Ideal S4x96 .f32) (t : Fin 4) (w : BitVec 32) (e : Fin 800000) (q : Fin 96) : EReal :=
  ((∑ k : Fin 128, feat (ix2 e k) * W (ix3 t k q)) + b (ix2 t q))
    * ((((IntOp.cmpi .eq (ty (ix2 e (0 : Fin 1))) w).setWidth 32).toInt : ℝ) : EReal)

/-- The whole message array: edge e, column q holds zero plus the four relation types' terms. -/
def msgArr (feat : Vec Ideal S800000x128 .bf16) (ty : Vec Ideal S800000x1 .i32) (W : Vec Ideal S4x128x96 .bf16)
    (b : Vec Ideal S4x96 .f32) : S800000x96.Idx → EReal := fun i =>
  0 + arrTerm feat ty W b 0 0#32 (i 0) (i 1) + arrTerm feat ty W b 1 1#32 (i 0) (i 1)
    + arrTerm feat ty W b 2 2#32 (i 0) (i 1) + arrTerm feat ty W b 3 3#32 (i 0) (i 1)

/-- The printed index maps over the 125 grid points: the edge windows (features, types, messages) sit at block t
    of their first axis and block 0 of their second; the weight and bias windows at block 0 throughout. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Edge row p of block t is edge t · 6400 + p. -/
def edgeOf (t : Fin cfg0.N) (p : Fin 6400) : Fin 800000 :=
  ⟨t.val * 6400 + p.val, by have ht : t.val < 125 := N_0 ▸ t.isLt; have := p.isLt; omega⟩

/-- The feature block at point t, row p, is the feature array at edge t · 6400 + p. -/
theorem featBlock_apply (c : Dev nD) (t : Fin cfg0.N) (p : Fin 6400) (k : Fin 128) :
    (iblk m c 0 t : Vec Ideal S6400x128 .bf16) (ix2 p k) = featArr m c (ix2 (edgeOf t p) k) := by
  obtain ⟨e0, e1, -⟩ := idx_facts t
  show featArr m c (((cfg0.win 0).blk t).view.emb (ix2 p k)) = _
  congr 1
  funext a
  apply Fin.ext
  match a with
  | ⟨0, _⟩ => show win0_0.index t (0 : Fin 2) * 6400 + 1 * p.val = t.val * 6400 + p.val; rw [e0]; omega
  | ⟨1, _⟩ => show win0_0.index t (1 : Fin 2) * 128 + 1 * k.val = k.val; rw [e1]; omega

/-- The type-word block at point t, row p, is the type column at edge t · 6400 + p. -/
theorem typeBlock_apply (c : Dev nD) (t : Fin cfg0.N) (p : Fin 6400) :
    (iblk m c 1 t : Vec Ideal S6400x1 .i32) (ix2 p (0 : Fin 1)) = typeArr m c (ix2 (edgeOf t p) (0 : Fin 1)) := by
  obtain ⟨-, -, e2, e3, -⟩ := idx_facts t
  show typeArr m c (((cfg0.win 1).blk t).view.emb (ix2 p (0 : Fin 1))) = _
  congr 1
  funext a
  apply Fin.ext
  match a with
  | ⟨0, _⟩ => show win0_1.index t (0 : Fin 2) * 6400 + 1 * p.val = t.val * 6400 + p.val; rw [e2]; omega
  | ⟨1, _⟩ => show win0_1.index t (1 : Fin 2) * 1 + 1 * 0 = 0; rw [e3]

/-- The weight window holds the whole weight tensor at every point. -/
theorem weightBlock_apply (c : Dev nD) (t : Fin cfg0.N) (r : Fin 4) (k : Fin 128) (q : Fin 96) :
    (iblk m c 2 t : Vec Ideal S4x128x96 .bf16) (ix3 r k q) = weightArr m c (ix3 r k q) := by
  obtain ⟨-, -, -, -, e4, e5, e6, -⟩ := idx_facts t
  show weightArr m c (((cfg0.win 2).blk t).view.emb (ix3 r k q)) = _
  congr 1
  funext a
  apply Fin.ext
  match a with
  | ⟨0, _⟩ => show win0_2.index t (0 : Fin 3) * 4 + 1 * r.val = r.val; rw [e4]; omega
  | ⟨1, _⟩ => show win0_2.index t (1 : Fin 3) * 128 + 1 * k.val = k.val; rw [e5]; omega
  | ⟨2, _⟩ => show win0_2.index t (2 : Fin 3) * 96 + 1 * q.val = q.val; rw [e6]; omega

/-- The bias window holds the whole bias table at every point. -/
theorem biasBlock_apply (c : Dev nD) (t : Fin cfg0.N) (r : Fin 4) (q : Fin 96) :
    (iblk m c 3 t : Vec Ideal S4x96 .f32) (ix2 r q) = biasArr m c (ix2 r q) := by
  obtain ⟨-, -, -, -, -, -, -, e7, e8, -⟩ := idx_facts t
  show biasArr m c (((cfg0.win 3).blk t).view.emb (ix2 r q)) = _
  congr 1
  funext a
  apply Fin.ext
  match a with
  | ⟨0, _⟩ => show win0_3.index t (0 : Fin 2) * 4 + 1 * r.val = r.val; rw [e7]; omega
  | ⟨1, _⟩ => show win0_3.index t (1 : Fin 2) * 96 + 1 * q.val = q.val; rw [e8]; omega

/-- WHAT POINT t WRITES BACK is block t of the message array of the arrays the region finds. -/
theorem flushed_eq (c : Dev nD) (t : Fin cfg0.N) :
    (dats m 0 c).flushed 4 t = ((cfg0.win 4).blk t).view.read (Elt Ideal)
      (msgArr (featArr m c) (typeArr m c) (weightArr m c) (biasArr m c)) := by
  show (cfg0.win 4).cut (grid0.coords t) ((dats m 0 c).after 4 t) = _
  rw [after0_4]
  funext j
  obtain ⟨p, q, rfl⟩ : ∃ (p : Fin 6400) (q : Fin 96), j = ix2 p q := ⟨j 0, j 1, eq_ix2 j⟩
  refine (stored_apply (iblk m c 0 t) (iblk m c 1 t) (iblk m c 2 t) (iblk m c 3 t) p q).trans ?_
  obtain ⟨-, -, -, -, -, -, -, -, -, e9, e10⟩ := idx_facts t
  have he : ((cfg0.win 4).blk t).view.emb (ix2 p q) = ix2 (edgeOf t p) q := by
    funext a
    apply Fin.ext
    match a with
    | ⟨0, _⟩ => show win0_4.index t (0 : Fin 2) * 6400 + 1 * p.val = t.val * 6400 + p.val; rw [e9]; omega
    | ⟨1, _⟩ => show win0_4.index t (1 : Fin 2) * 96 + 1 * q.val = q.val; rw [e10]; omega
  show _ = msgArr (featArr m c) (typeArr m c) (weightArr m c) (biasArr m c) (((cfg0.win 4).blk t).view.emb (ix2 p q))
  rw [he]
  unfold msgArr blockTerm arrTerm
  simp only [featBlock_apply m c t p, typeBlock_apply m c t p, weightBlock_apply m c t, biasBlock_apply m c t]

/-- An index of the message array is in point t's block iff each coordinate is in the block's range on its axis. -/
theorem mem_blk (t : Fin cfg0.N) (i : S800000x96.Idx) :
    i ∈ ((cfg0.win 4).blk t).view.set ↔ ∀ a : Fin 2, win0_4.index t a * S6400x96.size a ≤ (i a).val
      ∧ (i a).val < win0_4.index t a * S6400x96.size a + S6400x96.size a := by
  show i ∈ ((View.whole main_v31).slice (win0_4.rect t)).set ↔ _
  rw [View.set_slice_whole, Rect.mem_set_unit]
  exact Iff.rfl

/-- Every edge row lies in the block of the point row / 6400, and every point writes its block back. -/
theorem covered (i : S800000x96.Idx) :
    ∃ t : Fin cfg0.N, (cfg0.win 4).flush t = true ∧ i ∈ ((cfg0.win 4).blk t).view.set := by
  have hi0 : (i 0).val < 800000 := (i 0).isLt
  have hi1 : (i 1).val < 96 := (i 1).isLt
  have hN : cfg0.N = 125 := N_0
  obtain ⟨t, ht⟩ : ∃ t : Fin cfg0.N, t.val = (i 0).val / 6400 := ⟨⟨(i 0).val / 6400, by rw [hN]; omega⟩, rfl⟩
  obtain ⟨-, -, -, -, -, -, -, -, -, e9, e10⟩ := idx_facts t
  refine ⟨t, flush0_4 t, ?_⟩
  rw [mem_blk]
  intro a
  match a with
  | ⟨0, _⟩ =>
    show win0_4.index t (0 : Fin 2) * 6400 ≤ (i 0).val ∧ (i 0).val < win0_4.index t (0 : Fin 2) * 6400 + 6400
    rw [e9, ht]; omega
  | ⟨1, _⟩ =>
    show win0_4.index t (1 : Fin 2) * 96 ≤ (i 1).val ∧ (i 1).val < win0_4.index t (1 : Fin 2) * 96 + 96
    rw [e10]; omega

/-- THE MESSAGE ARRAY after the region: the one function of the arrays the region finds. -/
theorem msg_final (c : Dev nD) :
    (dats m 0 c).arrAt 4 cfg0.N = msgArr (featArr m c) (typeArr m c) (weightArr m c) (biasArr m c) :=
  (dats m 0 c).arrAt_eq_of_cover 4 _ (fun t _ => flushed_eq m c t) covered

/-! ## The lines after the region -/

/-- The destination words the scatter uses, as the region's entry leaves them. -/
abbrev dstArr (c : Dev nD) : Vec Ideal S800000 .i32 := V m c main_v3

/-- What the program returns: the message array added row by row into a zero array at the destination words,
    times the word that denotes one quarter. -/
def kernelResult (c : Dev nD) : S50000x96.Idx → EReal :=
  mulf (F := Ideal) (φ := .f32)
    (Host.scatterAdd (F := Ideal) scatter_S50000x96_S800000x1_S800000x96_1_0_0_1
      (broadcastInDim S50000x96 ![] bcast_S_S50000x96 (constant (F := Ideal) S_ .f32 0x00000000#32))
      (broadcastInDim S800000x1 ![0] bcast_S800000_S800000x1_0 (dstArr m c))
      (msgArr (featArr m c) (typeArr m c) (weightArr m c) (biasArr m c)))
    (broadcastInDim S50000x96 ![] bcast_S_S50000x96 (constant (F := Ideal) S_ .f32 0x3E800000#32))

/-- The lines after the region compute it from the message array the region leaves. -/
theorem tail_eq (c : Dev nD) :
    Pipeline.afterTail₀ cfgs (dats m) 0 (V0 m) [hostOps1] c main_v36 = kernelResult m c := by
  unfold Pipeline.afterTail₀
  show StableHlo.after hostOps1 _ (Proc.devRef .tc main_v36) = _
  after_results
  have h31 : Pipeline.withArrays (cfgs 0).spec c (V0 m c) (fun w => (dats m 0 c).arrAt w (cfgs 0).N)
      (Proc.devRef .tc main_v31) = msgArr (featArr m c) (typeArr m c) (weightArr m c) (biasArr m c) :=
    (Pipeline.withArrays_arr spec0 launch0.win.arr_inj c _ _ 4).trans (msg_final m c)
  have h3 : Pipeline.withArrays (cfgs 0).spec c (V0 m c) (fun w => (dats m 0 c).arrAt w (cfgs 0).N)
      (Proc.devRef .tc main_v3) = dstArr m c :=
    Pipeline.withArrays_of_ne spec0 c (V0 m c) _ main_v3 (by decide)
  rw [h31, h3]
  rfl

/-! ## What the region finds, from the arguments -/

/-- The type column the region finds is the type-word argument, one word per edge. -/
theorem typeArr_apply (c : Dev nD) (e : Fin 800000) :
    typeArr m c (ix2 e (0 : Fin 1)) = (m ((c.tc : Thread nD τ).loc main_arg3) : Vec Ideal S800000 .i32) (ix1 e) := by
  have h : typeArr m c = shapeCast S800000x1 (m ((c.tc : Thread nD τ).loc main_arg3) : Vec Ideal S800000 .i32)
      shapeCasts_S800000_S800000x1 := by
    show StableHlo.after hostOps0 (fun b => m (c, b)) (Proc.devRef .tc main_v29) = _
    after_results
    rfl
  rw [h]
  refine shapeCast_apply _ _ (ix2 e (0 : Fin 1)) (ix1 e) ?_
  rw [Shape.rowMajor_val_one, Shape.rowMajor_val_two]
  show e.val = e.val * 1 + 0
  omega

/-- The weight tensor the region finds is the weight argument: the change of float format is the identity on
    extended reals. -/
theorem weightArr_eq (c : Dev nD) :
    weightArr m c = (m ((c.tc : Thread nD τ).loc main_arg4) : Vec Ideal S4x128x96 .f32) := by
  show StableHlo.after hostOps0 (fun b => m (c, b)) (Proc.devRef .tc main_v30) = _
  after_results
  rfl

/-- The bias table the region finds is the bias argument. -/
theorem biasArr_eq (c : Dev nD) : biasArr m c = (m ((c.tc : Thread nD τ).loc main_arg5) : Vec Ideal S4x96 .f32) :=
  V_main_arg5 m c

/-- The destination words are row 1 of the edge-index argument. -/
theorem dstArr_eq (c : Dev nD) :
    dstArr m c = shapeCast S800000 (extractStridedSlice S1x800000 ![1, 0]
      (m ((c.tc : Thread nD τ).loc main_arg2) : Vec Ideal S2x800000 .i32) slices_S2x800000_S1x800000_1_0)
      shapeCasts_S1x800000_S800000 := by
  show StableHlo.after hostOps0 (fun b => m (c, b)) (Proc.devRef .tc main_v3) = _
  after_results
  rfl

/-! ## The run, read -/

variable (ρ : Dev nD → PrngReg)

/-- Every weakly fair execution of the idealized kernel program terminates with the result buffer at kernelResult
    and the six argument arrays as launched: the generated frame run, its post read at the result and at the
    arguments. -/
theorem run : θ_run (defs (F := Ideal)) (onTc (τ := τ) (main (F := Ideal))) ⟨m, fun _ => 0, ρ⟩ (fun r => ∀ c : Dev nD,
      r.2.mem ((c.tc : Thread nD τ).loc main_v36) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v36 (Pipeline.mem_restRefs_of main_v36 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c)))⟩)
    (run_main m ρ)

end Array

end Cert.KernelIdeal.Msg

end
-- ==== Proof.LibScatterRows.lean ====
/-
  A float `stablehlo.scatter` with an `add` body that adds WHOLE ROWS into a rank-2 operand, read at an index.

  What `jax.ops.segment_sum(upd, seg, num_segments = N)` (`.at[seg].add(upd)`) of updates `upd : [R, C]` at a
  one-column integer array `idx : [R, 1]` into an operand `[N, C]` lowers to: `lax.scatter_add` with
  update_window_dims `[1]`, inserted_window_dims `[0]`, scatter_dims_to_operand_dims `[0]`, index_vector_dim `1`.
  Update element `(j, q')` lands at row `idx[j, 0]`, read as a signed integer and NOT clamped, column `q'`; an
  update whose row is outside `[0, N)` is dropped.

  `resultIdx?_eq_some_iff` (any dimension numbers): an update lands at `i` iff on every axis its start plus its
  window coordinate is `i`'s coordinate. `rowDims N R C wf` are the dimension numbers above, generic in the three
  extents; `resultIdx?_rows_iff` is the landing condition for them, and `scatterAdd_rows_apply` is the exact
  (extended-real) scatter-add read at `(n, q)`: the operand's entry plus the sum, over the update rows `j` whose
  index is `n`, of `upd[j, q]`.
-/
import Idealize.ShloMosaic.PureOps.Ideal
import Idealize.ShloMosaic.Lib.ValueIdx

namespace Idealize.ShloMosaic.ScatterRows

open Idealize.ShloMosaic Idealize.ShloMosaic.ValueIdx
open scoped BigOperators

/-- An update index `j` lands at operand index `i` exactly when, on every operand axis, the start read off the
    scatter indices plus `j`'s window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · next hh =>
      have hi := Option.some.inj h
      intro a
      have ha : (d.start j idx a + (d.window j a : Int)).toNat = (i a).val :=
        congrArg (fun f : s.Idx => (f a).val) hi
      have h0 := (hh a).1
      omega
    · exact absurd h (by simp)
  · intro h
    have hh : ∀ a, 0 ≤ d.start j idx a + (d.window j a : Int) ∧ d.start j idx a + (d.window j a : Int) < s.size a := by
      intro a
      have h1 := h a
      have h2 := (i a).isLt
      omega
    rw [dif_pos hh]
    congr 1
    funext a
    refine Fin.ext ?_
    show (d.start j idx a + (d.window j a : Int)).toNat = (i a).val
    have h1 := h a
    omega

/-- The dimension numbers of a row scatter for an operand `[N, C]`, scatter indices `[R, 1]` and updates `[R, C]`. -/
abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section
variable {N R C w : Nat} (wf : ScatterDims.WF ⟨2, ![N, C]⟩ ⟨2, ![R, 1]⟩ ⟨2, ![R, C]⟩ [1] [0] [0] 1)

/-- The row axis is inserted: it is not among the operand's kept axes. -/
theorem row_not_kept : (0 : Fin 2) ∉ (rowDims N R C wf).sKept := by
  simp [ScatterDims.sKept, Shape.kept, List.mem_filter, List.mem_finRange]

/-- The column axis is kept. -/
theorem col_kept : (1 : Fin 2) ∈ (rowDims N R C wf).sKept := by
  simp [ScatterDims.sKept, Shape.kept, List.mem_filter, List.mem_finRange]

/-- On the row axis the start is the scatter index `idx[j, 0]`, read signed. -/
theorem start_row (idx : IVec ⟨2, ![R, 1]⟩ w) (j : Fin R) (q : Fin C) :
    (rowDims N R C wf).start (ix2 j q) idx 0 = (idx (ix2 j (0 : Fin 1))).toInt := by
  unfold ScatterDims.start
  rw [dif_pos (show (0 : Fin 2) ∈ (rowDims N R C wf).scatterDimsToOperandDims from List.mem_singleton.mpr rfl)]
  have hsi : (rowDims N R C wf).siIdx (ix2 j q) ⟨List.idxOf (0 : Fin 2) (rowDims N R C wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- On the column axis the start is zero: the map does not name it. -/
theorem start_col (idx : IVec ⟨2, ![R, 1]⟩ w) (j : Fin R) (q : Fin C) :
    (rowDims N R C wf).start (ix2 j q) idx 1 = 0 := by
  unfold ScatterDims.start
  rw [dif_neg (show (1 : Fin 2) ∉ (rowDims N R C wf).scatterDimsToOperandDims from
    fun h => absurd (congrArg Fin.val (List.mem_singleton.mp h)) Nat.one_ne_zero)]

/-- On the row axis the window coordinate is zero. -/
theorem window_row (j : Fin R) (q : Fin C) : (rowDims N R C wf).window (ix2 j q) 0 = 0 := by
  unfold ScatterDims.window
  rw [dif_neg (row_not_kept wf)]

/-- On the column axis the window coordinate is the update's column. -/
theorem window_col (j : Fin R) (q : Fin C) : (rowDims N R C wf).window (ix2 j q) 1 = q.val := by
  unfold ScatterDims.window
  rw [dif_pos (col_kept wf)]
  rfl

/-- Update element `(j, q')` lands at `(n, q)` exactly when its scatter index, read signed, is `n` and `q' = q`. -/
theorem resultIdx?_rows_iff (idx : IVec ⟨2, ![R, 1]⟩ w) (j : Fin R) (q' : Fin C) (n : Fin N) (q : Fin C) :
    (rowDims N R C wf).resultIdx? (ix2 j q') idx = some (ix2 n q)
      ↔ (idx (ix2 j (0 : Fin 1))).toInt = (n.val : Int) ∧ q' = q := by
  rw [resultIdx?_eq_some_iff]
  constructor
  · intro h
    have h0 : (rowDims N R C wf).start (ix2 j q') idx 0 + ((rowDims N R C wf).window (ix2 j q') 0 : Int) = (n.val : Int) := h 0
    have h1 : (rowDims N R C wf).start (ix2 j q') idx 1 + ((rowDims N R C wf).window (ix2 j q') 1 : Int) = (q.val : Int) := h 1
    rw [start_row, window_row] at h0
    rw [start_col, window_col] at h1
    refine ⟨by omega, Fin.ext (by omega)⟩
  · rintro ⟨h0, rfl⟩ a
    match a with
    | ⟨0, _⟩ =>
      show (rowDims N R C wf).start (ix2 j q') idx 0 + ((rowDims N R C wf).window (ix2 j q') 0 : Int) = (n.val : Int)
      rw [start_row, window_row]; omega
    | ⟨1, _⟩ =>
      show (rowDims N R C wf).start (ix2 j q') idx 1 + ((rowDims N R C wf).window (ix2 j q') 1 : Int) = (q'.val : Int)
      rw [start_col, window_col]; omega

/-- THE ROW SCATTER-ADD READ AT `(n, q)`: the operand's entry plus the sum of `upd[j, q]` over the update rows `j`
    whose scatter index, read signed, is `n`. -/
theorem scatterAdd_rows_apply (x : (⟨2, ![N, C]⟩ : Shape).Idx → EReal) (idx : IVec ⟨2, ![R, 1]⟩ w)
    (upd : (⟨2, ![R, C]⟩ : Shape).Idx → EReal) (n : Fin N) (q : Fin C) :
    Ideal.hostScatterAdd (rowDims N R C wf) x idx upd (ix2 n q)
      = x (ix2 n q) + ∑ j : Fin R, if (idx (ix2 j (0 : Fin 1))).toInt = (n.val : Int) then upd (ix2 j q) else 0 := by
  unfold Ideal.hostScatterAdd
  congr 1
  rw [Finset.sum_filter, sum_idx2]
  refine Finset.sum_congr rfl fun j _ => ?_
  rw [Finset.sum_eq_single q]
  · by_cases hj : (idx (ix2 j (0 : Fin 1))).toInt = (n.val : Int)
    · rw [if_pos ((resultIdx?_rows_iff wf idx j q n q).mpr ⟨hj, rfl⟩), if_pos hj]
    · rw [if_neg (fun h => hj ((resultIdx?_rows_iff wf idx j q n q).mp h).1), if_neg hj]
  · intro b _ hb
    exact if_neg (fun h => hb ((resultIdx?_rows_iff wf idx j b n q).mp h).2)
  · intro h
    exact absurd (Finset.mem_univ q) h

end

end Idealize.ShloMosaic.ScatterRows
-- ==== Proof.RowSum.lean ====
/-
  Adding update rows into a zero array: the destination rows' sums.

  Both programs add the rows of an 800000 × 96 update array into a zero 50000 × 96 array at destination words given
  as a length-800000 vector (laid out as a column for the scatter). Entry (n, q) of the result is zero plus the sum,
  over the edges e whose destination word read signed is n, of the update's entry (e, q); an edge whose word is
  outside the row range adds nothing. Stated over the row scatter's dimension numbers with the three extents literal,
  so that each program's own record meets it by unfolding.
-/
import proofs.«147556_j82308753260705_1_alg».proof.Proof.LibScatterRows
import Idealize.ShloMosaic.Lib.Pipeline.Value
import Idealize.ShloMosaic.PureOps.Ideal.Laws

noncomputable section

namespace Cert.RowSum

open Idealize.ShloMosaic Idealize.ShloMosaic.ValueIdx
open scoped BigOperators

/-- On extended reals the host's scatter-add is the exact one. -/
theorem hostScatterAdd_eq {s si su : Shape} (d : ScatterDims s si su) {w : Nat} (x : FVec Ideal s .f32) (i : IVec si w)
    (u : FVec Ideal su .f32) : Host.scatterAdd (F := Ideal) d x i u = Ideal.hostScatterAdd d x i u := rfl

/-- The row scatter-add at the three literal extents, read at (n, q): the operand's entry plus the sum of upd[e, q]
    over the update rows e whose index word, read signed, is n. -/
theorem rowScatter_apply
    (wf : ScatterDims.WF ⟨2, ![50000, 96]⟩ ⟨2, ![800000, 1]⟩ ⟨2, ![800000, 96]⟩ [1] [0] [0] 1)
    (x : (⟨2, ![50000, 96]⟩ : Shape).Idx → EReal) (idx : IVec ⟨2, ![800000, 1]⟩ 32)
    (upd : (⟨2, ![800000, 96]⟩ : Shape).Idx → EReal) (n : Fin 50000) (q : Fin 96) :
    Ideal.hostScatterAdd (ScatterRows.rowDims 50000 800000 96 wf) x idx upd (ix2 n q)
      = x (ix2 n q) + ∑ e : Fin 800000, if (idx (ix2 e (0 : Fin 1))).toInt = (n.val : Int) then upd (ix2 e q) else 0 :=
  ScatterRows.scatterAdd_rows_apply wf x idx upd n q

/-- A length-800000 vector laid out as a column reads its entry e at (e, 0). -/
theorem column_apply {α : Type} (hb3 : (⟨1, ![800000]⟩ : Shape).BroadcastsInDim ⟨2, ![800000, 1]⟩ (![0] : Fin 1 → Fin 2))
    (dst : (⟨1, ![800000]⟩ : Shape).Idx → α) (e : Fin 800000) :
    broadcastInDim ⟨2, ![800000, 1]⟩ ![0] hb3 dst (ix2 e (0 : Fin 1)) = dst (ix1 e) :=
  broadcastInDim_apply _ hb3 dst (ix2 e (0 : Fin 1)) (ix1 e) (fun a => match a with
    | ⟨0, _⟩ => by show e.val = if (800000 : Nat) = 1 then 0 else e.val; rw [if_neg (by decide)])

/-- The row scatter-add of upd into the zero array at the destination words dst, read at (n, q). -/
theorem zeroRowScatter_apply
    (wf : ScatterDims.WF ⟨2, ![50000, 96]⟩ ⟨2, ![800000, 1]⟩ ⟨2, ![800000, 96]⟩ [1] [0] [0] 1)
    (hb0 : (⟨0, ![]⟩ : Shape).BroadcastsInDim ⟨2, ![50000, 96]⟩ (![] : Fin 0 → Fin 2))
    (hb3 : (⟨1, ![800000]⟩ : Shape).BroadcastsInDim ⟨2, ![800000, 1]⟩ (![0] : Fin 1 → Fin 2))
    (dst : IVec ⟨1, ![800000]⟩ 32) (upd : (⟨2, ![800000, 96]⟩ : Shape).Idx → EReal) (n : Fin 50000) (q : Fin 96) :
    Ideal.hostScatterAdd (ScatterRows.rowDims 50000 800000 96 wf)
        (broadcastInDim ⟨2, ![50000, 96]⟩ ![] hb0 (constant (F := Ideal) ⟨0, ![]⟩ .f32 0x00000000#32))
        (broadcastInDim ⟨2, ![800000, 1]⟩ ![0] hb3 dst) upd (ix2 n q)
      = 0 + ∑ e : Fin 800000, if (dst (ix1 e)).toInt = (n.val : Int) then upd (ix2 e q) else 0 := by
  refine (rowScatter_apply wf _ _ upd n q).trans ?_
  refine congrArg₂ (· + ·) ?_ ?_
  · show Ideal.ofBits .f32 0x00000000#32 = 0
    exact Ideal.ofBits_zero_f32
  · refine Finset.sum_congr rfl fun e _ => ?_
    rw [column_apply hb3 dst e]

end Cert.RowSum

end
-- ==== Proof.RefTerm.lean ====
/-
  One relation type's update array in the reference, entry by entry.

  For relation type o (type word w) the reference slices row o out of the weight tensor and the bias table,
  multiplies the edges' features (800000 × 128) with the 128 × 96 weight matrix, adds the bias row under every edge,
  and multiplies by the column of indicators that the edge's type word is w (the compare bit read unsigned). So
  entry (e, q) of the update array is
    (∑ k, feat[e, k] · W[o, k, q] + b[o, q]) · [ty e = w].
  Stated once over the operations themselves, for any offset o and word w; the four relation types are its
  instances.
-/
import proofs.«147556_j82308753260705_1_alg».proof.Proof.Gen.ReferenceIdeal
import Idealize.ShloMosaic.Lib.ValueIdx
import Idealize.ShloMosaic.Lib.Pipeline.Value
import Idealize.ShloMosaic.PureOps.Ideal.Laws

noncomputable section

namespace Cert.ReferenceIdeal.Rel

open Cert.ReferenceIdeal Cert.ReferenceIdeal.Gen Idealize.ShloMosaic Idealize.ShloMosaic.TcCoe Idealize.ShloMosaic.ValueIdx
open scoped BigOperators

/-! ## The product of the 800000 × 128 features with a 128 × 96 matrix, at an entry -/

theorem lhs_axis0 (i : S800000x96.Idx) (q : dot_S800000x128_S128x96_S800000x96_1_0_0_1_n_n.contr.Idx) :
    (dot_S800000x128_S128x96_S800000x96_1_0_0_1_n_n.lhsIdx i q 0).val = (i 0).val := by
  unfold DotDims.lhsIdx
  rw [dif_neg (show ¬(0 : Fin S800000x128.rank) ∈ dot_S800000x128_S128x96_S800000x96_1_0_0_1_n_n.lhsBatch by decide), dif_pos (show (0 : Fin S800000x128.rank) ∈ dot_S800000x128_S128x96_S800000x96_1_0_0_1_n_n.lhsNonContracting by decide)]
  rfl
theorem lhs_axis1 (i : S800000x96.Idx) (q : dot_S800000x128_S128x96_S800000x96_1_0_0_1_n_n.contr.Idx) :
    (dot_S800000x128_S128x96_S800000x96_1_0_0_1_n_n.lhsIdx i q 1).val = (q ⟨0, by decide⟩).val :=
  dot_S800000x128_S128x96_S800000x96_1_0_0_1_n_n.lhsIdx_val_of_single rfl i q
theorem rhs_axis0 (i : S800000x96.Idx) (q : dot_S800000x128_S128x96_S800000x96_1_0_0_1_n_n.contr.Idx) :
    (dot_S800000x128_S128x96_S800000x96_1_0_0_1_n_n.rhsIdx i q 0).val = (q ⟨0, by decide⟩).val :=
  dot_S800000x128_S128x96_S800000x96_1_0_0_1_n_n.rhsIdx_val_of_single rfl i q
theorem rhs_axis1 (i : S800000x96.Idx) (q : dot_S800000x128_S128x96_S800000x96_1_0_0_1_n_n.contr.Idx) :
    (dot_S800000x128_S128x96_S800000x96_1_0_0_1_n_n.rhsIdx i q 1).val = (i 1).val := by
  unfold DotDims.rhsIdx
  rw [dif_neg (show ¬(1 : Fin S128x96.rank) ∈ dot_S800000x128_S128x96_S800000x96_1_0_0_1_n_n.rhsBatch by decide), dif_pos (show (1 : Fin S128x96.rank) ∈ dot_S800000x128_S128x96_S800000x96_1_0_0_1_n_n.rhsNonContracting by decide)]
  rfl

/-- Entry (e, q) of the host's product is the sum over the 128 shared coordinates. -/
theorem dot_apply (a : FVec Ideal S800000x128 .f32) (w : FVec Ideal S128x96 .f32) (e : Fin 800000) (q : Fin 96) :
    Host.dotGeneral dot_S800000x128_S128x96_S800000x96_1_0_0_1_n_n none a w (ix2 e q)
      = ∑ k : Fin 128, a (ix2 e k) * w (ix2 k q) := by
  simp only [Host.dotGeneral]
  rw [Ideal.dotGeneral_apply, ← Equiv.sum_comp (contrEquiv1 dot_S800000x128_S128x96_S800000x96_1_0_0_1_n_n 128 rfl rfl).symm]
  refine Finset.sum_congr rfl fun k _ => ?_
  have hk := contrEquiv1_symm_val dot_S800000x128_S128x96_S800000x96_1_0_0_1_n_n 128 rfl rfl k
  have el : dot_S800000x128_S128x96_S800000x96_1_0_0_1_n_n.lhsIdx (ix2 e q) ((contrEquiv1 dot_S800000x128_S128x96_S800000x96_1_0_0_1_n_n 128 rfl rfl).symm k) = ix2 e k := funext fun a => Fin.ext (by
    match a with
    | ⟨0, _⟩ => exact lhs_axis0 _ _
    | ⟨1, _⟩ => exact (lhs_axis1 _ _).trans hk)
  have er : dot_S800000x128_S128x96_S800000x96_1_0_0_1_n_n.rhsIdx (ix2 e q) ((contrEquiv1 dot_S800000x128_S128x96_S800000x96_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The pieces of one relation type's update, at an entry -/

/-- Row o of the weight tensor, sliced out and read as a 128 × 96 matrix. -/
theorem weightRows_apply {α : Type} (W : S4x128x96.Idx → α) (o : ℕ) (ho : o < 4)
    (hs : S4x128x96.Slices ![o, 0, 0] S1x128x96) (hc : S1x128x96.ShapeCasts S128x96) (k : Fin 128) (q : Fin 96) :
    shapeCast S128x96 (extractStridedSlice S1x128x96 ![o, 0, 0] W hs) hc (ix2 k q) = W (ix3 (⟨o, ho⟩ : Fin 4) k q) := by
  refine (shapeCast_apply _ hc (ix2 k q) (ix3 (0 : Fin 1) k q) ?_).trans ?_
  · rw [Shape.rowMajor_val_three, Shape.rowMajor_val_two]
    show (0 * 128 + k.val) * 96 + q.val = k.val * 96 + q.val
    omega
  · exact extractStridedSlice_apply ![o, 0, 0] W hs (ix3 (0 : Fin 1) k q) (ix3 (⟨o, ho⟩ : Fin 4) k q) (fun a => match a with
      | ⟨0, _⟩ => by show o = o + 0; omega
      | ⟨1, _⟩ => by show k.val = 0 + k.val; omega
      | ⟨2, _⟩ => by show q.val = 0 + q.val; omega)

/-- Row o of the bias table, sliced out, flattened, and laid under every one of the 800000 edges. -/
theorem biasRow_apply {α : Type} (b : S4x96.Idx → α) (o : ℕ) (ho : o < 4)
    (hs : S4x96.Slices ![o, 0] S1x96) (hc : S1x96.ShapeCasts S96)
    (hb1 : S96.BroadcastsInDim S1x96 (![1] : Fin 1 → Fin S1x96.rank))
    (hb2 : S1x96.BroadcastsInDim S800000x96 (![0, 1] : Fin 2 → Fin S800000x96.rank)) (e : Fin 800000) (q : Fin 96) :
    broadcastInDim S800000x96 ![0, 1] hb2 (broadcastInDim S1x96 ![1] hb1
        (shapeCast S96 (extractStridedSlice S1x96 ![o, 0] b hs) hc)) (ix2 e q) = b (ix2 (⟨o, ho⟩ : Fin 4) q) := by
  refine (broadcastInDim_apply _ hb2 _ (ix2 e q) (ix2 (0 : Fin 1) q) (fun a => match a with
    | ⟨0, _⟩ => by show (0 : ℕ) = if (1 : Nat) = 1 then 0 else e.val; rw [if_pos rfl]
    | ⟨1, _⟩ => by show q.val = if (96 : Nat) = 1 then 0 else q.val; rw [if_neg (by decide)])).trans ?_
  refine (broadcastInDim_apply _ hb1 _ (ix2 (0 : Fin 1) q) (ix1 q) (fun a => match a with
    | ⟨0, _⟩ => by show q.val = if (96 : Nat) = 1 then 0 else q.val; rw [if_neg (by decide)])).trans ?_
  refine (shapeCast_apply _ hc (ix1 q) (ix2 (0 : Fin 1) q) ?_).trans ?_
  · rw [Shape.rowMajor_val_two, Shape.rowMajor_val_one]
    show 0 * 96 + q.val = q.val
    omega
  · exact extractStridedSlice_apply ![o, 0] b hs (ix2 (0 : Fin 1) q) (ix2 (⟨o, ho⟩ : Fin 4) q) (fun a => match a with
      | ⟨0, _⟩ => by show o = o + 0; omega
      | ⟨1, _⟩ => by show q.val = 0 + q.val; omega)

/-- The indicator column of the type word w, laid across the 96 columns: the compare bit read unsigned. -/
theorem typeColumn_apply (ty : IVec S800000 32) (w : BitVec 32)
    (hb0 : S_.BroadcastsInDim S800000 (![] : Fin 0 → Fin S800000.rank))
    (hb3 : S800000.BroadcastsInDim S800000x1 (![0] : Fin 1 → Fin S800000x1.rank))
    (hb4 : S800000x1.BroadcastsInDim S800000x96 (![0, 1] : Fin 2 → Fin S800000x96.rank)) (e : Fin 800000) (q : Fin 96) :
    broadcastInDim S800000x96 ![0, 1] hb4 (broadcastInDim S800000x1 ![0] hb3
        (uitofp (F := Ideal) .f32 (cmpi .eq ty (broadcastInDim S800000 ![] hb0 (constantI S_ 32 w))))) (ix2 e q)
      = (((IntOp.cmpi .eq (ty (ix1 e)) w).toNat : ℝ) : EReal) := by
  refine (broadcastInDim_apply _ hb4 _ (ix2 e q) (ix2 e (0 : Fin 1)) (fun a => match a with
    | ⟨0, _⟩ => by show e.val = if (800000 : Nat) = 1 then 0 else e.val; rw [if_neg (by decide)]
    | ⟨1, _⟩ => by show (0 : ℕ) = if (1 : Nat) = 1 then 0 else q.val; rw [if_pos rfl])).trans ?_
  refine (broadcastInDim_apply _ hb3 _ (ix2 e (0 : Fin 1)) (ix1 e) (fun a => match a with
    | ⟨0, _⟩ => by show e.val = if (800000 : Nat) = 1 then 0 else e.val; rw [if_neg (by decide)])).trans ?_
  rfl

/-- THE UPDATE of relation type o (type word w), at entry (e, q), from the feature array feat, the type words
    ty, the weight tensor W and the bias table b. -/
theorem relUpdate_apply (feat : FVec Ideal S800000x128 .f32) (ty : IVec S800000 32) (W : FVec Ideal S4x128x96 .f32)
    (b : FVec Ideal S4x96 .f32) (o : ℕ) (ho : o < 4) (w : BitVec 32)
    (hsW : S4x128x96.Slices ![o, 0, 0] S1x128x96) (hcW : S1x128x96.ShapeCasts S128x96)
    (hsB : S4x96.Slices ![o, 0] S1x96) (hcB : S1x96.ShapeCasts S96)
    (hb1 : S96.BroadcastsInDim S1x96 (![1] : Fin 1 → Fin S1x96.rank))
    (hb2 : S1x96.BroadcastsInDim S800000x96 (![0, 1] : Fin 2 → Fin S800000x96.rank))
    (hb0 : S_.BroadcastsInDim S800000 (![] : Fin 0 → Fin S800000.rank))
    (hb3 : S800000.BroadcastsInDim S800000x1 (![0] : Fin 1 → Fin S800000x1.rank))
    (hb4 : S800000x1.BroadcastsInDim S800000x96 (![0, 1] : Fin 2 → Fin S800000x96.rank)) (e : Fin 800000) (q : Fin 96) :
    mulf (addf (Host.dotGeneral dot_S800000x128_S128x96_S800000x96_1_0_0_1_n_n none feat
              (shapeCast S128x96 (extractStridedSlice S1x128x96 ![o, 0, 0] W hsW) hcW))
            (broadcastInDim S800000x96 ![0, 1] hb2 (broadcastInDim S1x96 ![1] hb1
              (shapeCast S96 (extractStridedSlice S1x96 ![o, 0] b hsB) hcB))))
        (broadcastInDim S800000x96 ![0, 1] hb4 (broadcastInDim S800000x1 ![0] hb3
          (uitofp (F := Ideal) .f32 (cmpi .eq ty (broadcastInDim S800000 ![] hb0 (constantI S_ 32 w)))))) (ix2 e q)
      = ((∑ k : Fin 128, feat (ix2 e k) * W (ix3 (⟨o, ho⟩ : Fin 4) k q)) + b (ix2 (⟨o, ho⟩ : Fin 4) q))
          * (((IntOp.cmpi .eq (ty (ix1 e)) w).toNat : ℝ) : EReal) := by
  rw [mulf_apply, addf_apply, dot_apply, biasRow_apply b o ho, typeColumn_apply]
  simp only [weightRows_apply W o ho]

/-! ## The mean of the four stacked row sums -/

/-- Four 50000 × 96 arrays, each given a leading unit axis, as the list of pieces the stack joins. -/
abbrev stackOf {α : Type} (hb : S50000x96.BroadcastsInDim S1x50000x96 (![1, 2] : Fin 2 → Fin S1x50000x96.rank))
    (s0 s1 s2 s3 : S50000x96.Idx → α) : List ((s : Shape) × (s.Idx → α)) :=
  [⟨S1x50000x96, broadcastInDim S1x50000x96 ![1, 2] hb s0⟩, ⟨S1x50000x96, broadcastInDim S1x50000x96 ![1, 2] hb s1⟩,
    ⟨S1x50000x96, broadcastInDim S1x50000x96 ![1, 2] hb s2⟩, ⟨S1x50000x96, broadcastInDim S1x50000x96 ![1, 2] hb s3⟩]

/-- The stack read at (r, n, q) for r = 0, 1, 2, 3: array r at (n, q). -/
theorem stack_apply {α : Type} (s0 s1 s2 s3 : S50000x96.Idx → α)
    (hb : S50000x96.BroadcastsInDim S1x50000x96 (![1, 2] : Fin 2 → Fin S1x50000x96.rank))
    (hc : Shape.Concatenates ((stackOf hb s0 s1 s2 s3).map (·.1)) S4x50000x96 0)
    (n : Fin 50000) (q : Fin 96) :
    (concatenate S4x50000x96 0 (stackOf hb s0 s1 s2 s3) hc (ix3 (0 : Fin 4) n q) = s0 (ix2 n q))
    ∧ (concatenate S4x50000x96 0 (stackOf hb s0 s1 s2 s3) hc (ix3 (1 : Fin 4) n q) = s1 (ix2 n q))
    ∧ (concatenate S4x50000x96 0 (stackOf hb s0 s1 s2 s3) hc (ix3 (2 : Fin 4) n q) = s2 (ix2 n q))
    ∧ (concatenate S4x50000x96 0 (stackOf hb s0 s1 s2 s3) hc (ix3 (3 : Fin 4) n q) = s3 (ix2 n q)) := by
  have unit : ∀ s : S50000x96.Idx → α, broadcastInDim S1x50000x96 ![1, 2] hb s (ix3 (0 : Fin 1) n q) = s (ix2 n q) :=
    fun s => broadcastInDim_apply _ hb s (ix3 (0 : Fin 1) n q) (ix2 n q) (fun a => match a with
      | ⟨0, _⟩ => by show n.val = if (50000 : Nat) = 1 then 0 else n.val; rw [if_neg (by decide)]
      | ⟨1, _⟩ => by show q.val = if (96 : Nat) = 1 then 0 else q.val; rw [if_neg (by decide)])
  have off : ∀ (r : Fin 4) (b : Fin S1x50000x96.rank), b.cast (rfl : S1x50000x96.rank = S4x50000x96.rank) ≠ (0 : Fin 3) →
      ((ix3 (0 : Fin 1) n q) b).val = ((ix3 r n q) (b.cast (rfl : S1x50000x96.rank = S4x50000x96.rank))).val :=
    fun r b hb' => match b with
      | ⟨0, _⟩ => absurd rfl hb'
      | ⟨1, _⟩ => rfl
      | ⟨2, _⟩ => rfl
  refine ⟨?_, ?_, ?_, ?_⟩
  · exact (concatenate_apply_piece (0 : Fin 3) (stackOf hb s0 s1 s2 s3) hc (ix3 (0 : Fin 4) n q) 0 (by show (0 : ℕ) < 4; decide)
      S1x50000x96 _ rfl rfl 0 rfl (ix3 (0 : Fin 1) n q) (off 0) rfl).trans (unit s0)
  · exact (concatenate_apply_piece (0 : Fin 3) (stackOf hb s0 s1 s2 s3) hc (ix3 (1 : Fin 4) n q) 1 (by show (1 : ℕ) < 4; decide)
      S1x50000x96 _ rfl rfl 1 rfl (ix3 (0 : Fin 1) n q) (off 1) rfl).trans (unit s1)
  · exact (concatenate_apply_piece (0 : Fin 3) (stackOf hb s0 s1 s2 s3) hc (ix3 (2 : Fin 4) n q) 2 (by show (2 : ℕ) < 4; decide)
      S1x50000x96 _ rfl rfl 2 rfl (ix3 (0 : Fin 1) n q) (off 2) rfl).trans (unit s2)
  · exact (concatenate_apply_piece (0 : Fin 3) (stackOf hb s0 s1 s2 s3) hc (ix3 (3 : Fin 4) n q) 3 (by show (3 : ℕ) < 4; decide)
      S1x50000x96 _ rfl rfl 3 rfl (ix3 (0 : Fin 1) n q) (off 3) rfl).trans (unit s3)

/-- The host's sum over the leading axis of a 4 × 50000 × 96 array, from an initial value, at (n, q). -/
theorem reduce4_apply (y : FVec Ideal S4x50000x96 .f32) (init : FVec Ideal S_ .f32)
    (hr : S4x50000x96.ReducesTo [0] S50000x96) (hS : 0 < S_.numel) (n : Fin 50000) (q : Fin 96) :
    Host.reduceAdd y init hr hS (ix2 n q) = init (Shape.Idx.first hS) + ∑ k : Fin 4, y (ix3 k n q) := by
  simp only [Host.reduceAdd, Ideal.hostReduceAdd_def]
  rw [Ideal.hostReduceAdd_single hr (by decide)]
  refine congrArg (_ + ·) (Finset.sum_congr rfl fun k _ => ?_)
  exact congrArg y (funext fun a => Fin.ext (by match a with | ⟨0, _⟩ => rfl | ⟨1, _⟩ => rfl | ⟨2, _⟩ => rfl))

/-- THE MEAN over the four stacked arrays, at (n, q): zero plus the four entries, divided by what the word
    0x40800000 denotes. -/
theorem mean_apply (s0 s1 s2 s3 : FVec Ideal S50000x96 .f32)
    (hb : S50000x96.BroadcastsInDim S1x50000x96 (![1, 2] : Fin 2 → Fin S1x50000x96.rank))
    (hc : Shape.Concatenates ((stackOf hb s0 s1 s2 s3).map (·.1)) S4x50000x96 0)
    (hr : S4x50000x96.ReducesTo [0] S50000x96) (hS : 0 < S_.numel)
    (hb0 : S_.BroadcastsInDim S50000x96 (![] : Fin 0 → Fin S50000x96.rank)) (n : Fin 50000) (q : Fin 96) :
    Host.divf (Host.reduceAdd (concatenate S4x50000x96 0 (stackOf hb s0 s1 s2 s3) hc)
          (constant (F := Ideal) S_ .f32 0x00000000#32) hr hS)
        (broadcastInDim S50000x96 ![] hb0 (constant (F := Ideal) S_ .f32 0x40800000#32)) (ix2 n q)
      = Ideal.div (0 + (s0 (ix2 n q) + s1 (ix2 n q) + s2 (ix2 n q) + s3 (ix2 n q))) (Ideal.ofBits .f32 0x40800000#32) := by
  obtain ⟨h0, h1, h2, h3⟩ := stack_apply s0 s1 s2 s3 hb hc n q
  show Ideal.div (Host.reduceAdd (concatenate S4x50000x96 0 (stackOf hb s0 s1 s2 s3) hc)
      (constant (F := Ideal) S_ .f32 0x00000000#32) hr hS (ix2 n q)) (Ideal.ofBits .f32 0x40800000#32) = _
  rw [reduce4_apply, Fin.sum_univ_four, h0, h1, h2, h3]
  show Ideal.div (Ideal.ofBits .f32 0x00000000#32 + _) _ = _
  rw [Ideal.ofBits_zero_f32]

end Cert.ReferenceIdeal.Rel

end
-- ==== Proof.TypeMean.lean ====
/-
  The mathematics both programs share, over the extended reals.

  An edge e of relation type t carries the message
    (∑ k, feat[e, k] · W[t, k, q] + b[t, q]) · [type e = t],
  the bracket being the one-bit compare of the edge's type word with t, read as the number 0 or 1. One program
  adds the four relation types' messages on every edge and then adds the edges into their destination rows; the
  other adds each relation type's messages into the destination rows and then adds the four row sums. Both are
  the same double sum: a finite sum of sums is summed in either order (addition of extended reals is commutative
  and associative; nothing here multiplies across a sum, so no entry has to be finite). The first program then
  multiplies by the word 0x3E800000, which denotes exactly 1/4; the second divides by the word 0x40800000, which
  denotes exactly 4; and on every extended real the quotient by 4 is the product with 1/4.
-/
import Idealize.ShloMosaic.PureOps.Ideal
import Idealize.ShloMosaic.PureOps.Ideal.Laws
import Idealize.ShloMosaic.Lib.ValueIdx

noncomputable section

namespace Cert.TypeMean

open Idealize.ShloMosaic Idealize.ShloMosaic.ValueIdx
open scoped BigOperators

/-! ## The two literals -/

/-- The word 0x3E800000 denotes one quarter. -/
theorem ofBits_quarter : Ideal.ofBits .f32 0x3E800000#32 = ((1 / 4 : ℝ) : EReal) := by
  simp [Ideal.ofBits, Ideal.ieee, -EReal.coe_mul]; norm_num

/-- The word 0x40800000 denotes four. -/
theorem ofBits_four : Ideal.ofBits .f32 0x40800000#32 = ((4 : ℝ) : EReal) := by
  simp [Ideal.ofBits, Ideal.ieee, -EReal.coe_mul]; norm_num

/-! ## A one-bit word as a number -/

/-- A one-bit word widened with zeros to 32 bits and read signed is the bit itself, 0 or 1: the same number the
    bit denotes when read unsigned. -/
theorem bit_signed_eq_unsigned (b : BitVec 1) : (((b.setWidth 32).toInt : ℝ) : EReal) = ((b.toNat : ℝ) : EReal) := by
  by_cases h : b = 1#1
  · subst h; norm_num
  · rw [eq_zero_of_ne_one h]; norm_num

/-! ## Adding selected rows -/

section
variable {ι : Type} [Fintype ι] {M : Type} [AddCommMonoid M]

/-- Adding a e + b e over the selected e is adding the a e and adding the b e. -/
theorem sum_sel_add (c : ι → Prop) [DecidablePred c] (a b : ι → M) :
    (∑ e, if c e then a e + b e else 0) = (∑ e, if c e then a e else 0) + ∑ e, if c e then b e else 0 := by
  rw [← Finset.sum_add_distrib]
  refine Finset.sum_congr rfl fun e _ => ?_
  by_cases h : c e
  · simp only [if_pos h]
  · simp only [if_neg h, add_zero]

end

/-- THE LAW. Four families a0 … a3 of extended reals over the edges, c the edges that land in one row: the
    edges' four-term sums added over the row, times 1/4, is the four row sums added, divided by 4. (Each sum is
    written as the programs compute it: started from zero.) -/
theorem quarter_of_row_sum {ι : Type} [Fintype ι] (c : ι → Prop) [DecidablePred c] (a0 a1 a2 a3 : ι → EReal) :
    (0 + ∑ e, if c e then 0 + a0 e + a1 e + a2 e + a3 e else 0) * ((1 / 4 : ℝ) : EReal)
      = Ideal.div (0 + ((0 + ∑ e, if c e then a0 e else 0) + (0 + ∑ e, if c e then a1 e else 0)
          + (0 + ∑ e, if c e then a2 e else 0) + (0 + ∑ e, if c e then a3 e else 0))) ((4 : ℝ) : EReal) := by
  rw [Ideal.div_coe (by norm_num : (4 : ℝ) ≠ 0)]
  congr 1
  simp only [zero_add]
  rw [sum_sel_add, sum_sel_add, sum_sel_add]

/-! ## One relation type's message on one edge -/

/-- The message of relation type t (whose type word is w) on edge e, column q: the edge's features against
    the type's weight matrix, plus the type's bias, times the indicator that the edge's type word ty e is w. -/
def relMsg (feat : (⟨2, ![800000, 128]⟩ : Shape).Idx → EReal) (ty : Fin 800000 → BitVec 32)
    (W : (⟨3, ![4, 128, 96]⟩ : Shape).Idx → EReal) (b : (⟨2, ![4, 96]⟩ : Shape).Idx → EReal)
    (t : Fin 4) (w : BitVec 32) (e : Fin 800000) (q : Fin 96) : EReal :=
  ((∑ k : Fin 128, feat (ix2 e k) * W (ix3 t k q)) + b (ix2 t q)) * (((IntOp.cmpi .eq (ty e) w).toNat : ℝ) : EReal)

end Cert.TypeMean

end
-- ==== Proof.Joined.lean ====
/-
  The two programs return the same array.

  Entry (n, q) of the kernel program's result is (0 + the sum, over the edges e whose destination word is n, of the
  edge's message) · 1/4, the edge's message being zero plus the four relation types' messages. Entry (n, q) of the
  reference's result is (0 + the four relation types' row sums) / 4, each row sum zero plus the sum over the same
  edges of that type's message. The messages are the same numbers on both sides: the features, destination words,
  type words, weights and biases the kernel's region finds are the reference's own stages of the same arguments,
  and a one-bit compare read signed after widening is the bit read unsigned. The two results are then equal by
  the law of the row sums.
-/
import proofs.«147556_j82308753260705_1_alg».proof.Proof.MsgArray
import proofs.«147556_j82308753260705_1_alg».proof.Proof.RowSum
import proofs.«147556_j82308753260705_1_alg».proof.Proof.RefTerm
import proofs.«147556_j82308753260705_1_alg».proof.Proof.TypeMean
import proofs.«147556_j82308753260705_1_alg».proof.Proof.Gen.ReferenceIdeal.Run
import proofs.«147556_j82308753260705_1_alg».proof.Proof.Gen.ReferenceIdeal.Read

noncomputable section

namespace Cert.Joined

open Idealize.ShloMosaic Idealize.ShloMosaic.TcCoe Idealize.ShloMosaic.ValueIdx Idealize.SL.Sem Idealize.ShloMosaic.StableHlo
open Cert.TypeMean
open scoped BigOperators

/-! ## The kernel program's result, at an entry -/

section Kernel

open Cert.KernelIdeal Cert.KernelIdeal.Gen Cert.KernelIdeal.Msg

variable (m : (ℓ : Loc Cert.KernelIdeal.nD Cert.KernelIdeal.τ Cert.KernelIdeal.sig) → Buf (Elt Ideal) ℓ)

/-- The type word of edge e, from the type-word argument. -/
abbrev kTy (c : Dev Cert.KernelIdeal.nD) : Fin 800000 → BitVec 32 := fun e =>
  (m ((c.tc : Thread Cert.KernelIdeal.nD Cert.KernelIdeal.τ).loc Cert.KernelIdeal.main_arg3) : Vec Ideal Cert.KernelIdeal.S800000 .i32) (ix1 e)

/-- The message the region leaves on edge e, column q, is zero plus the four relation types' messages. -/
theorem msg_apply (c : Dev Cert.KernelIdeal.nD) (e : Fin 800000) (q : Fin 96) :
    msgArr (featArr m c) (typeArr m c) (weightArr m c) (biasArr m c) (ix2 e q)
      = 0 + relMsg (featArr m c) (kTy m c) (weightArr m c) (biasArr m c) 0 0#32 e q
          + relMsg (featArr m c) (kTy m c) (weightArr m c) (biasArr m c) 1 1#32 e q
          + relMsg (featArr m c) (kTy m c) (weightArr m c) (biasArr m c) 2 2#32 e q
          + relMsg (featArr m c) (kTy m c) (weightArr m c) (biasArr m c) 3 3#32 e q := by
  show 0 + arrTerm (featArr m c) (typeArr m c) (weightArr m c) (biasArr m c) 0 0#32 e q
      + arrTerm (featArr m c) (typeArr m c) (weightArr m c) (biasArr m c) 1 1#32 e q
      + arrTerm (featArr m c) (typeArr m c) (weightArr m c) (biasArr m c) 2 2#32 e q
      + arrTerm (featArr m c) (typeArr m c) (weightArr m c) (biasArr m c) 3 3#32 e q = _
  unfold arrTerm relMsg
  rw [typeArr_apply]
  simp only [bit_signed_eq_unsigned]

/-- The kernel program's scatter has the row scatter's dimension numbers. -/
theorem kScatter_eq : scatter_S50000x96_S800000x1_S800000x96_1_0_0_1
    = ScatterRows.rowDims 50000 800000 96 scatter_S50000x96_S800000x1_S800000x96_1_0_0_1_wf := rfl

/-- THE KERNEL PROGRAM'S RESULT at (n, q). -/
theorem kernel_apply (c : Dev Cert.KernelIdeal.nD) (n : Fin 50000) (q : Fin 96) :
    kernelResult m c (ix2 n q)
      = (0 + ∑ e : Fin 800000, if (dstArr m c (ix1 e)).toInt = (n.val : Int) then
            0 + relMsg (featArr m c) (kTy m c) (weightArr m c) (biasArr m c) 0 0#32 e q
              + relMsg (featArr m c) (kTy m c) (weightArr m c) (biasArr m c) 1 1#32 e q
              + relMsg (featArr m c) (kTy m c) (weightArr m c) (biasArr m c) 2 2#32 e q
              + relMsg (featArr m c) (kTy m c) (weightArr m c) (biasArr m c) 3 3#32 e q
          else 0) * ((1 / 4 : ℝ) : EReal) := by
  unfold kernelResult
  rw [mulf_apply, Cert.RowSum.hostScatterAdd_eq, kScatter_eq, Cert.RowSum.zeroRowScatter_apply]
  show _ * Ideal.ofBits .f32 0x3E800000#32 = _
  rw [ofBits_quarter]
  simp only [msg_apply m c]

end Kernel

/-! ## The reference's result, at an entry -/

section Reference

open Cert.ReferenceIdeal Cert.ReferenceIdeal.Gen Cert.ReferenceIdeal.Read Cert.ReferenceIdeal.Rel

variable (x0 : (⟨S50000x96, .f32⟩ : BufTy).Contents (Elt Ideal)) (x1 : (⟨S50000x32, .f32⟩ : BufTy).Contents (Elt Ideal))
  (x2 : (⟨S2x800000, .i32⟩ : BufTy).Contents (Elt Ideal)) (x3 : (⟨S800000, .i32⟩ : BufTy).Contents (Elt Ideal))
  (x4 : (⟨S4x128x96, .f32⟩ : BufTy).Contents (Elt Ideal)) (x5 : (⟨S4x96, .f32⟩ : BufTy).Contents (Elt Ideal))

/-- The type word of edge e, from the type-word argument. -/
abbrev rTy : Fin 800000 → BitVec 32 := fun e => x3 (ix1 e)

/-- The reference's scatters have the row scatter's dimension numbers. -/
theorem rScatter_eq : scatter_S50000x96_S800000x1_S800000x96_1_0_0_1
    = ScatterRows.rowDims 50000 800000 96 scatter_S50000x96_S800000x1_S800000x96_1_0_0_1_wf := rfl

/-- One relation type's row sum at (n, q): zero plus the sum of the type's messages over the edges whose
    destination word is n. -/
theorem rowSum_apply (o : ℕ) (ho : o < 4) (w : BitVec 32) (upd : FVec Ideal S800000x96 .f32)
    (n : Fin 50000) (q : Fin 96)
    (hu : ∀ e : Fin 800000, upd (ix2 e q) = relMsg (val_main_v27 (F := Ideal) x0 x1 x2) (rTy x3) x4 x5 ⟨o, ho⟩ w e q) :
    Host.scatterAdd (F := Ideal) scatter_S50000x96_S800000x1_S800000x96_1_0_0_1
        (broadcastInDim S50000x96 ![] bcast_S_S50000x96 (constant (F := Ideal) S_ .f32 0x00000000#32))
        (broadcastInDim S800000x1 ![0] bcast_S800000_S800000x1_0 (val_main_v3 (F := Ideal) x2)) upd (ix2 n q)
      = 0 + ∑ e : Fin 800000, if (val_main_v3 (F := Ideal) x2 (ix1 e)).toInt = (n.val : Int) then
          relMsg (val_main_v27 (F := Ideal) x0 x1 x2) (rTy x3) x4 x5 ⟨o, ho⟩ w e q else 0 := by
  rw [Cert.RowSum.hostScatterAdd_eq, rScatter_eq, Cert.RowSum.zeroRowScatter_apply]
  simp only [hu]

/-- The update array of relation type 0 is the type's messages. -/
theorem upd0_apply (e : Fin 800000) (q : Fin 96) :
    val_main_v41 (F := Ideal) x0 x1 x2 x3 x4 x5 (ix2 e q)
      = relMsg (val_main_v27 (F := Ideal) x0 x1 x2) (rTy x3) x4 x5 ⟨0, by decide⟩ 0#32 e q := by
  unfold val_main_v41 val_main_v39 val_main_v40 val_main_v34 val_main_v38 val_main_v37 val_main_v36 val_main_v35
    val_main_v33 val_main_v32 val_main_v31 val_main_v30 val_main_v29 val_main_v28 val_main_c_5
  exact relUpdate_apply (val_main_v27 (F := Ideal) x0 x1 x2) x3 x4 x5 0 (by decide) 0#32 _ _ _ _ _ _ _ _ _ e q

/-- The update array of relation type 1 is the type's messages. -/
theorem upd1_apply (e : Fin 800000) (q : Fin 96) :
    val_main_v58 (F := Ideal) x0 x1 x2 x3 x4 x5 (ix2 e q)
      = relMsg (val_main_v27 (F := Ideal) x0 x1 x2) (rTy x3) x4 x5 ⟨1, by decide⟩ 1#32 e q := by
  unfold val_main_v58 val_main_v56 val_main_v57 val_main_v51 val_main_v55 val_main_v54 val_main_v53 val_main_v52
    val_main_v50 val_main_v49 val_main_v48 val_main_v47 val_main_v46 val_main_v45 val_main_c_6
  exact relUpdate_apply (val_main_v27 (F := Ideal) x0 x1 x2) x3 x4 x5 1 (by decide) 1#32 _ _ _ _ _ _ _ _ _ e q

/-- The update array of relation type 2 is the type's messages. -/
theorem upd2_apply (e : Fin 800000) (q : Fin 96) :
    val_main_v75 (F := Ideal) x0 x1 x2 x3 x4 x5 (ix2 e q)
      = relMsg (val_main_v27 (F := Ideal) x0 x1 x2) (rTy x3) x4 x5 ⟨2, by decide⟩ 2#32 e q := by
  unfold val_main_v75 val_main_v73 val_main_v74 val_main_v68 val_main_v72 val_main_v71 val_main_v70 val_main_v69
    val_main_v67 val_main_v66 val_main_v65 val_main_v64 val_main_v63 val_main_v62 val_main_c_8
  exact relUpdate_apply (val_main_v27 (F := Ideal) x0 x1 x2) x3 x4 x5 2 (by decide) 2#32 _ _ _ _ _ _ _ _ _ e q

/-- The update array of relation type 3 is the type's messages. -/
theorem upd3_apply (e : Fin 800000) (q : Fin 96) :
    val_main_v92 (F := Ideal) x0 x1 x2 x3 x4 x5 (ix2 e q)
      = relMsg (val_main_v27 (F := Ideal) x0 x1 x2) (rTy x3) x4 x5 ⟨3, by decide⟩ 3#32 e q := by
  unfold val_main_v92 val_main_v90 val_main_v91 val_main_v85 val_main_v89 val_main_v88 val_main_v87 val_main_v86
    val_main_v84 val_main_v83 val_main_v82 val_main_v81 val_main_v80 val_main_v79 val_main_c_10
  exact relUpdate_apply (val_main_v27 (F := Ideal) x0 x1 x2) x3 x4 x5 3 (by decide) 3#32 _ _ _ _ _ _ _ _ _ e q

/-- THE REFERENCE'S RESULT at (n, q). -/
theorem reference_apply (n : Fin 50000) (q : Fin 96) :
    val_main_v103 (F := Ideal) x0 x1 x2 x3 x4 x5 (ix2 n q)
      = Ideal.div (0 + ((0 + ∑ e : Fin 800000, if (val_main_v3 (F := Ideal) x2 (ix1 e)).toInt = (n.val : Int) then
              relMsg (val_main_v27 (F := Ideal) x0 x1 x2) (rTy x3) x4 x5 ⟨0, by decide⟩ 0#32 e q else 0)
          + (0 + ∑ e : Fin 800000, if (val_main_v3 (F := Ideal) x2 (ix1 e)).toInt = (n.val : Int) then
              relMsg (val_main_v27 (F := Ideal) x0 x1 x2) (rTy x3) x4 x5 ⟨1, by decide⟩ 1#32 e q else 0)
          + (0 + ∑ e : Fin 800000, if (val_main_v3 (F := Ideal) x2 (ix1 e)).toInt = (n.val : Int) then
              relMsg (val_main_v27 (F := Ideal) x0 x1 x2) (rTy x3) x4 x5 ⟨2, by decide⟩ 2#32 e q else 0)
          + (0 + ∑ e : Fin 800000, if (val_main_v3 (F := Ideal) x2 (ix1 e)).toInt = (n.val : Int) then
              relMsg (val_main_v27 (F := Ideal) x0 x1 x2) (rTy x3) x4 x5 ⟨3, by decide⟩ 3#32 e q else 0)))
          ((4 : ℝ) : EReal) := by
  unfold val_main_v103 val_main_v101 val_main_v102 val_main_v100 val_main_cst_12 val_main_cst_13 val_main_v96
    val_main_v97 val_main_v98 val_main_v99
  rw [mean_apply, ofBits_four]
  unfold val_main_v44 val_main_v61 val_main_v78 val_main_v95 val_main_v42 val_main_v59 val_main_v76 val_main_v93
    val_main_cst val_main_cst_7 val_main_cst_9 val_main_cst_11 val_main_v43 val_main_v60 val_main_v77 val_main_v94
  rw [rowSum_apply x0 x1 x2 x3 x4 x5 0 (by decide) 0#32 _ n q (fun e => upd0_apply x0 x1 x2 x3 x4 x5 e q),
    rowSum_apply x0 x1 x2 x3 x4 x5 1 (by decide) 1#32 _ n q (fun e => upd1_apply x0 x1 x2 x3 x4 x5 e q),
    rowSum_apply x0 x1 x2 x3 x4 x5 2 (by decide) 2#32 _ n q (fun e => upd2_apply x0 x1 x2 x3 x4 x5 e q),
    rowSum_apply x0 x1 x2 x3 x4 x5 3 (by decide) 3#32 _ n q (fun e => upd3_apply x0 x1 x2 x3 x4 x5 e q)]

end Reference

/-! ## What the kernel's region finds is the reference's own stages; the two results -/

section Same

open Cert.KernelIdeal Cert.KernelIdeal.Gen Cert.KernelIdeal.Msg

variable (m : (ℓ : Loc Cert.KernelIdeal.nD Cert.KernelIdeal.τ Cert.KernelIdeal.sig) → Buf (Elt Ideal) ℓ)

/-- The feature array the region finds is the reference's feature stage of the same three arguments: the same
    slices, index wrap, row gathers, absolute difference and concatenation, and a change of float format that is the
    identity on extended reals. -/
theorem feat_eq (c : Dev nD) :
    featArr m c = Cert.ReferenceIdeal.Read.val_main_v27 (F := Ideal) (m ((c.tc : Thread nD τ).loc main_arg0))
      (m ((c.tc : Thread nD τ).loc main_arg1)) (m ((c.tc : Thread nD τ).loc main_arg2)) := by
  show StableHlo.after hostOps0 (fun b => m (c, b)) (Proc.devRef .tc main_v28) = _
  after_results_simp
  rfl

/-- The destination words the region finds are the reference's destination stage of the edge-index argument. -/
theorem dst_eq (c : Dev nD) :
    dstArr m c = Cert.ReferenceIdeal.Read.val_main_v3 (F := Ideal) (m ((c.tc : Thread nD τ).loc main_arg2)) :=
  (dstArr_eq m c).trans rfl

/-- THE TWO RESULTS ARE ONE ARRAY, from memories that agree on the six arguments. -/
theorem result_eq
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    Cert.ReferenceIdeal.Value.res_main_v103 (F := Ideal) m' c = kernelResult m c := by
  rw [Cert.ReferenceIdeal.Read.val_main_v103_eq, h0, h1, h2, h3, h4, h5]
  funext i
  obtain ⟨n, q, rfl⟩ : ∃ (n : Fin 50000) (q : Fin 96), i = ix2 n q := ⟨i 0, i 1, eq_ix2 i⟩
  rw [reference_apply, kernel_apply, feat_eq, dst_eq, weightArr_eq, biasArr_eq]
  exact (quarter_of_row_sum _ _ _ _ _).symm

end Same

end Cert.Joined

end
-- ==== Proof.lean ====
/-
  The five claims about the edge-message kernel and its reference.

  The kernel program gathers, for each of 800000 edges, the source node's features and the absolute difference of
  the two endpoints' edge features; its region computes per edge the sum over the four relation types of
  (features · W[t] + b[t]) · [type = t]; the lines after the region add the edges' messages into their destination
  nodes' rows and multiply by 1/4. The reference adds each relation type's messages into the destination rows
  separately, stacks the four arrays and takes their mean. Over the extended reals both are the same array: the
  row sum of a four-term sum is the sum of the four row sums, and a quotient by 4 is a product with 1/4 (modules
  TypeMean, MsgBlock, MsgArray, RowSum, RefTerm, Joined).

  The three frames: the two kernel programs by their frame runs; the reference by its run with the result dropped.
  The idealization rewrote no operation, so its claim is trivial.
-/
import proofs.«147556_j82308753260705_1_alg».proof.Defs
import proofs.«147556_j82308753260705_1_alg».proof.Proof.Gen.Kernel
import proofs.«147556_j82308753260705_1_alg».proof.Proof.Gen.Kernel.Skeleton
import proofs.«147556_j82308753260705_1_alg».proof.Proof.Gen.Kernel.Launch
import proofs.«147556_j82308753260705_1_alg».proof.Proof.Gen.Kernel.Points
import proofs.«147556_j82308753260705_1_alg».proof.Proof.Gen.Kernel.Frame
import proofs.«147556_j82308753260705_1_alg».proof.Proof.Gen.KernelIdeal
import proofs.«147556_j82308753260705_1_alg».proof.Proof.Gen.KernelIdeal.Skeleton
import proofs.«147556_j82308753260705_1_alg».proof.Proof.Gen.KernelIdeal.Launch
import proofs.«147556_j82308753260705_1_alg».proof.Proof.Gen.KernelIdeal.Points
import proofs.«147556_j82308753260705_1_alg».proof.Proof.Gen.KernelIdeal.Frame
import proofs.«147556_j82308753260705_1_alg».proof.Proof.Gen.ReferenceIdeal
import proofs.«147556_j82308753260705_1_alg».proof.Proof.Gen.ReferenceIdeal.Run
import proofs.«147556_j82308753260705_1_alg».proof.Proof.Gen.Pre_finite_inputs
import proofs.«147556_j82308753260705_1_alg».proof.Proof.Joined
import Idealize.ShloMosaic.Adequacy
import Idealize.ShloMosaic.Init

noncomputable section

namespace Cert.Proof

open Idealize.ShloMosaic Idealize.SL.Sem

/-- The word-level kernel program terminates without a fault and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both idealized programs run, and end with one result array: the
    kernel program's, which the reference's equals entry by entry. -/
theorem algebraic : Cert.algebraic_KernelIdeal_ReferenceIdeal := by
  intro m ρ m' ρ' _ hagree
  refine ⟨fun c => Cert.KernelIdeal.Msg.kernelResult m c, Cert.KernelIdeal.Msg.run m ρ, ?_⟩
  refine (θ_run Cert.ReferenceIdeal.defs _ _).mono (fun _ h c => ⟨(h c).1.trans ?_, (h c).2⟩)
    (Cert.ReferenceIdeal.Value.run (F := Ideal) m' ρ')
  exact Cert.Joined.result_eq m m' c (hagree c).1 (hagree c).2.1 (hagree c).2.2.1 (hagree c).2.2.2.1
    (hagree c).2.2.2.2.1 (hagree c).2.2.2.2.2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
